-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x4096 : Shape := ⟨2, ![2048, 4096]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048x4096 .f32) (main_arg8 : FVec F S2048 .f32) (main_arg9 : FVec F S2048x4096 .f32) (main_arg10 : FVec F S2048 .f32) (main_v33 : IVec S_ 1) : IVec S_ 1 :=
  let main_v34 : FVec F S2048x4096 .f32 := Host.absf main_arg7
  let main_cst_12 : FVec F S_ .f32 := constant S_ .f32 0x7F800000#32
  let main_v35 : FVec F S2048x4096 .f32 := broadcastInDim S2048x4096 ![] bcast_S_S2048x4096 main_cst_12
  let main_v36 : IVec S2048x4096 1 := cmpf .olt main_v34 main_v35
  let main_c_13 : IVec S_ 1 := constantI S_ 1 1#1
  let main_v37 : IVec S_ 1 := (fun x v => Host.reduce IntOp.andi x v reducesTo_S2048x4096_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x4096 .f32 := Host.absf main_arg9
  let main_cst_16 : FVec F S_ .f32 := constant S_ .f32 0x7F800000#32
  let main_v45 : FVec F S2048x4096 .f32 := broadcastInDim S2048x4096 ![] bcast_S_S2048x4096 main_cst_16
  let main_v46 : IVec S2048x4096 1 := cmpf .olt main_v44 main_v45
  let main_c_17 : IVec S_ 1 := constantI S_ 1 1#1
  let main_v47 : IVec S_ 1 := (fun x v => Host.reduce IntOp.andi x v reducesTo_S2048x4096_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x2048 .f32) (main_arg1 : FVec F S4096x2048 .f32) (main_arg2 : FVec F S4096x2048 .f32) (main_arg3 : FVec F S2048x4096 .f32) (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_arg7 main_arg8 main_arg9 main_arg10 main_v13 main_v16
-- ==== Kernel.lean ====
abbrev S4096x2048 : Shape := ⟨2, ![4096, 2048]⟩
abbrev S2048x4096 : Shape := ⟨2, ![2048, 4096]⟩
abbrev S2048 : Shape := ⟨1, ![2048]⟩
abbrev S4096x4096 : Shape := ⟨2, ![4096, 4096]⟩
abbrev S8192x4096 : Shape := ⟨2, ![8192, 4096]⟩
abbrev S4096x8192 : Shape := ⟨2, ![4096, 8192]⟩
abbrev S8192 : Shape := ⟨1, ![8192]⟩
abbrev S1x8192 : Shape := ⟨2, ![1, 8192]⟩
abbrev S256x128 : Shape := ⟨2, ![256, 128]⟩
abbrev S128x8192 : Shape := ⟨2, ![128, 8192]⟩
abbrev S256x2048 : Shape := ⟨2, ![256, 2048]⟩
abbrev S256x8192 : Shape := ⟨2, ![256, 8192]⟩

abbrev nBuf : Space → Nat
  | .hbm => 20
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S4096x4096, .f32⟩
  | .hbm, ⟨12, _⟩ => ⟨S4096x4096, .bf16⟩
  | .hbm, ⟨13, _⟩ => ⟨S8192x4096, .f32⟩
  | .hbm, ⟨14, _⟩ => ⟨S4096x8192, .f32⟩
  | .hbm, ⟨15, _⟩ => ⟨S4096x8192, .bf16⟩
  | .hbm, ⟨16, _⟩ => ⟨S8192, .f32⟩
  | .hbm, ⟨17, _⟩ => ⟨S1x8192, .f32⟩
  | .hbm, ⟨18, _⟩ => ⟨S4096x2048, .f32⟩
  | .hbm, ⟨19, _⟩ => ⟨S4096x2048, .f32⟩
  | .local _ .vmem, ⟨0, _⟩ => ⟨S256x128, .bf16⟩
  | .local _ .vmem, ⟨1, _⟩ => ⟨S256x128, .bf16⟩
  | .local _ .vmem, ⟨2, _⟩ => ⟨S128x8192, .bf16⟩
  | .local _ .vmem, ⟨3, _⟩ => ⟨S128x8192, .bf16⟩
  | .local _ .vmem, ⟨4, _⟩ => ⟨S1x8192, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x8192, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 32], ![false, false]⟩

def k0_cond2 (i : grid0.Coords) : BitVec 1 :=
  let arg1 : BitVec 32 := BitVec.ofNat 32 (i 1).val
  let c31_i32 : BitVec 32 := 31#32
  let v13 : BitVec 1 := Scalar.cmpi .eq arg1 c31_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  concatenates_S4096x2048_S4096x2048_S4096x4096_d1 : Shape.Concatenates [S4096x2048, S4096x2048] S4096x4096 1
  bitsLt_bf16_f32 : FTy.bits .bf16 < FTy.bits .f32
  concatenates_S2048x4096_S2048x4096_S2048x4096_S2048x4096_S8192x4096_d0 : Shape.Concatenates [S2048x4096, S2048x4096, S2048x4096, S2048x4096] S8192x4096 0
  transposes_S8192x4096_S4096x8192_1_0 : S8192x4096.Transposes [1, 0] S4096x8192
  concatenates_S2048_S2048_S2048_S2048_S8192_d0 : Shape.Concatenates [S2048, S2048, S2048, S2048] S8192 0
  shapeCasts_S8192_S1x8192 : S8192.ShapeCasts S1x8192
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S256x8192 : S1x8192.Broadcasts S256x8192
  slices_S256x8192_o0_0_S256x2048 : S256x8192.Slices ![0, 0] S256x2048
  slices_S256x8192_o0_2048_S256x2048 : S256x8192.Slices ![0, 2048] S256x2048
  slices_S256x8192_o0_4096_S256x2048 : S256x8192.Slices ![0, 4096] S256x2048
  slices_S256x8192_o0_6144_S256x2048 : S256x8192.Slices ![0, 6144] S256x2048
  inb_S256x2048_S256x2048_0_0 : ∀ a, (![0, 0] : Fin 2 → Nat) a + S256x2048.size a ≤ S256x2048.size a
  h_S256x2048 : 0 < S256x2048.numel
  dot_S256x128_S128x8192_S256x8192_1_0_0_1_n_n_wf : DotDims.WF S256x128 S128x8192 S256x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S4096x4096.size a
  hwx0_0 : ∀ i : grid0.Coords, EltTy.bits .bf16 = 32 ∨ (Rect.block (s := S4096x4096) S256x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S4096x8192.size a
  hwx0_1 : ∀ i : grid0.Coords, EltTy.bits .bf16 = 32 ∨ (Rect.block (s := S4096x8192) S128x8192.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S4096x2048.size a
  hwx0_3 : ∀ i : grid0.Coords, EltTy.bits .f32 = 32 ∨ (Rect.block (s := S4096x2048) S256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S4096x2048.size a
  hwx0_4 : ∀ i : grid0.Coords, EltTy.bits .f32 = 32 ∨ (Rect.block (s := S4096x2048) S256x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S4096x2048.size a
  hwx0_5 : ∀ i : grid0.Coords, EltTy.bits .f32 = 32 ∨ (Rect.block (s := S4096x2048) S256x2048.size (cc0_transform_5 i) (hinb0_5 i)).WholeWords (EltTy.packing .f32)

variable [Facts₀]

def dot_S256x128_S128x8192_S256x8192_1_0_0_1_n_n : DotDims S256x128 S128x8192 S256x8192 where
  lhsContracting := [1]
  rhsContracting := [0]
  lhsNonContracting := [0]
  rhsNonContracting := [1]
  lhsBatch := []
  rhsBatch := []
  wf := dot_S256x128_S128x8192_S256x8192_1_0_0_1_n_n_wf

abbrev win0_0 : Pipeline.Window sig grid0 :=
  Pipeline.Window.ofSpec (Memref.whole main_v1) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S256x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x4096 : Shape := ⟨2, ![2048, 4096]⟩
abbrev S2048 : Shape := ⟨1, ![2048]⟩
abbrev S4096x4096 : Shape := ⟨2, ![4096, 4096]⟩
abbrev S8192x4096 : Shape := ⟨2, ![8192, 4096]⟩
abbrev S8192 : Shape := ⟨1, ![8192]⟩
abbrev S4096x8192 : Shape := ⟨2, ![4096, 8192]⟩
abbrev S1x8192 : Shape := ⟨2, ![1, 8192]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S4096x4096, .f32⟩
  | .hbm, ⟨12, _⟩ => ⟨S8192x4096, .f32⟩
  | .hbm, ⟨13, _⟩ => ⟨S8192, .f32⟩
  | .hbm, ⟨14, _⟩ => ⟨S4096x8192, .f32⟩
  | .hbm, ⟨15, _⟩ => ⟨S4096x8192, .f32⟩
  | .hbm, ⟨16, _⟩ => ⟨S1x8192, .f32⟩
  | .hbm, ⟨17, _⟩ => ⟨S4096x8192, .f32⟩
  | .hbm, ⟨18, _⟩ => ⟨S4096x8192, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S4096x2048_S4096x2048_S4096x4096_d1 : Shape.Concatenates [S4096x2048, S4096x2048] S4096x4096 1
  concatenates_S2048x4096_S2048x4096_S2048x4096_S2048x4096_S8192x4096_d0 : Shape.Concatenates [S2048x4096, S2048x4096, S2048x4096, S2048x4096] S8192x4096 0
  concatenates_S2048_S2048_S2048_S2048_S8192_d0 : Shape.Concatenates [S2048, S2048, S2048, S2048] S8192 0
  transposes_S8192x4096_S4096x8192_1_0 : S8192x4096.Transposes [1, 0] S4096x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x4096_S4096x8192_S4096x8192_1_0_0_1_n_n_wf : DotDims.WF S4096x4096 S4096x8192 S4096x8192 [1] [0] [0] [1] [] []

variable [Facts₀]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf

class Facts : Prop extends Facts₀ where

variable [Facts]
-- ==== Proof.KFrameB.Kit.lean ====
/-
  The fused LSTM-cell kernel call, seen from outside the kernel body.

  Before the call the host joins the inputs with the previous hidden states (4096 × 4096), joins the four gates'
  weight matrices and transposes them (4096 × 8192), and joins the four bias vectors into one row (1 × 8192); the
  call then walks a 16 × 32 grid: 16 blocks of 256 batch rows, and for each of them 32 steps along the contracted
  axis, 128 entries at a time. None of the host operations writes an argument of the program, so after the call
  every argument still holds what it held at the start.

  This module fixes what the call finds in memory (V), the block of each operand a grid point works on (iblk),
  the two conditions the kernel body branches on in closed form over the 512 grid points — "first step along the
  contracted axis" and "last step" —, and where the two result windows are idle (every step but the last).
-/
import proofs.«123030_j16269336118035_1_alg».proof.Proof.Gen.Kernel.Launch
import proofs.«123030_j16269336118035_1_alg».proof.Proof.Gen.Kernel.Skeleton
import proofs.«123030_j16269336118035_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Memory when the kernel call is entered -/

/-- What core `c`'s buffers hold when the kernel call is entered: the launch contents after the seven host operations. -/
abbrev V (c : Dev nD) (b : Ref sig .tc) : Buf (Elt F) ((c : Thread nD τ).loc b) := StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- The program is the seven host operations followed by the kernel call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the kernel call writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- No host operation before the kernel call writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- No host operation before the kernel call writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- No host operation before the kernel call writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- No host operation before the kernel call writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- No host operation before the kernel call writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- No host operation before the kernel call writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- No host operation before the kernel call writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- No host operation before the kernel call writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- No host operation before the kernel call writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- No host operation before the kernel call writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-! ## The operands' blocks -/

/-- The block of window `w`'s array that grid point `t` works on, read off the array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every grid point, whether the pipeline fetched it there
    or the block index did not move since the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every grid point, whether the pipeline fetched it there
    or the block index did not move since the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every grid point, whether the pipeline fetched it there
    or the block index did not move since the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every grid point, whether the pipeline fetched it there
    or the block index did not move since the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## From the arrays after the call to the arguments unchanged -/

/-- If after the run every window's array holds what the pipeline's bookkeeping says and every other buffer what the
    call found, then every argument of the program holds what it held at the start: the old cell state is an input
    window's array, which the pipeline only reads; the other ten arguments are not touched by the call at all. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 3).trans (((dats 0 c).arrAt_in 3 rfl _).trans ((hA c 3).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The two conditions of the kernel body -/

/-- "This is the first step along the contracted axis", as the body computes it from the grid coordinates. -/
abbrev condFirst (i : grid0.Coords) : Prop := (Scalar.cmpi .ne (Scalar.extui (Scalar.cmpi .eq (BitVec.ofNat 32 (i 1).val) 0#32)) 0#32) = 1#1
/-- It holds at the grid points whose number is a multiple of 32. -/
theorem hcondFirst : ∀ t : Fin cfg0.N, condFirst (grid0.coords t) ↔ t.val % 32 = 0 :=
  (by decide +kernel : ∀ t : Fin grid0.N, condFirst (grid0.coords t) ↔ t.val % 32 = 0)

/-- "This is the last step along the contracted axis". -/
abbrev condLast (i : grid0.Coords) : Prop := k0_cond2 i = 1#1
/-- It holds at the grid points whose number is 31 modulo 32. -/
theorem hcondLast : ∀ t : Fin cfg0.N, condLast (grid0.coords t) ↔ t.val % 32 = 31 :=
  (by decide +kernel : ∀ t : Fin grid0.N, condLast (grid0.coords t) ↔ t.val % 32 = 31)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Before the last step the body stores nothing into the hidden-state window and the pipeline does not write it back. -/
theorem idleAt0_4 : ∀ t : Fin cfg0.N, ¬condLast (grid0.coords t) → cfg0.idle 4 (grid0.coords t) = true := by decide +kernel
theorem noFlush0_4 : ∀ t : Fin cfg0.N, ¬condLast (grid0.coords t) → (cfg0.win 4).flush t = false := by decide +kernel
/-- The same for the cell-state window. -/
theorem idleAt0_5 : ∀ t : Fin cfg0.N, ¬condLast (grid0.coords t) → cfg0.idle 5 (grid0.coords t) = true := by decide +kernel
theorem noFlush0_5 : ∀ t : Fin cfg0.N, ¬condLast (grid0.coords t) → (cfg0.win 5).flush t = false := by decide +kernel
/-- At the last step both result windows are live. -/
theorem liveAt0_4 : ∀ t : Fin cfg0.N, condLast (grid0.coords t) → cfg0.idle 4 (grid0.coords t) = false := by decide +kernel
theorem liveAt0_5 : ∀ t : Fin cfg0.N, condLast (grid0.coords t) → cfg0.idle 5 (grid0.coords t) = false := by decide +kernel

/-! ## The staging memrefs the body is called with -/

abbrev ms0_0 (t : Fin cfg0.N) : Memref sig .tc .vmem S256x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x8192 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x2048 .f32 := win0_5.stage (cfg0.slots t 5)
abbrev hs0_5 (t : Fin cfg0.N) : (ms0_5 t).IsWhole := hstage0_5 ((cfg0.slots t 5).cast nbuf0_5)
/-- The accumulator: 256 rows of the 8192 gate columns, kept in scratch memory from one step to the next. -/
abbrev accM : Memref sig .tc .vmem S256x8192 .f32 := Memref.whole cc0_scratch0

/-- What the kernel body may use beside its windows: the accumulator at some contents, and the random-number register. -/
theorem PhiA0_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Hand

end
-- ==== Proof.KFrameB.RunFirst.lean ====
/-
  The kernel body at a FIRST step along the contracted axis (and not the last).

  The body clears the accumulator, then adds to it the product of the step's 256 × 128 block of inputs with the
  step's 128 × 8192 block of weights; it stores nothing into the two result windows. Run on whole staging buffers
  holding the four operand blocks, it hands every operand buffer and both result buffers back as it found them
  and leaves the accumulator overwritten by the list of stores the run records.
-/
import proofs.«123030_j16269336118035_1_alg».proof.Proof.KFrameB.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores a first step leaves in the accumulator (latest first), with the proof that the body, run from the
    operand blocks `x0 … x3`, the result buffers at any contents and the accumulator at any contents, ends with
    everything but the accumulator unchanged and the accumulator overwritten by exactly those stores. -/
noncomputable def runFirst (c : Dev nD) (i : grid0.Coords) (arg2 : Memref sig .tc .vmem S256x128 .bf16) (harg2 : arg2.IsWhole) (arg3 : Memref sig .tc .vmem S128x8192 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : condFirst i) (hc1 : ¬condLast i)
    (x0 : Vec F S256x128 .bf16) (x1 : Vec F S128x8192 .bf16) (x2 : Vec F S1x8192 .f32) (x3 : Vec F S256x2048 .f32) :
    { LS : List (View.Piece (Elt F) S256x8192 .f32) //
      ∀ (xi4 xi5 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__lstm_kernel i arg2 harg2 arg3 harg3 arg4 harg4 arg5 harg5 arg6 harg6 arg7 harg7 arg8 harg8) K } := by
  refine ⟨?_, fun xi4 xi5 E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.KFrameB.RunMiddle.lean ====
/-
  The kernel body at a MIDDLE step along the contracted axis (neither the first nor the last).

  The body adds to the accumulator the product of the step's block of inputs with the step's block of weights and
  does nothing else. Run on whole staging buffers and on the accumulator at the contents `xs` the step before left,
  it hands everything back unchanged but the accumulator, overwritten by the stores the run records.
-/
import proofs.«123030_j16269336118035_1_alg».proof.Proof.KFrameB.RunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores a middle step leaves in the accumulator, with the proof of the body's run from the operand blocks and
    the accumulator at `xs`. -/
noncomputable def runMiddle (c : Dev nD) (i : grid0.Coords) (arg2 : Memref sig .tc .vmem S256x128 .bf16) (harg2 : arg2.IsWhole) (arg3 : Memref sig .tc .vmem S128x8192 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : ¬condFirst i) (hc1 : ¬condLast i)
    (x0 : Vec F S256x128 .bf16) (x1 : Vec F S128x8192 .bf16) (x2 : Vec F S1x8192 .f32) (x3 : Vec F S256x2048 .f32) (xs : Vec F S256x8192 .f32) :
    { LS : List (View.Piece (Elt F) S256x8192 .f32) //
      ∀ (xi4 xi5 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__lstm_kernel i arg2 harg2 arg3 harg3 arg4 harg4 arg5 harg5 arg6 harg6 arg7 harg7 arg8 harg8) K } := by
  refine ⟨?_, fun xi4 xi5 E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.KFrameB.RunLast.lean ====
/-
  The kernel body at the LAST step along the contracted axis.

  The body adds the step's product to the accumulator, then adds the bias row to every row of the accumulator, cuts
  the four gates out of the 8192 columns, and stores the new hidden state and the new cell state into the two result
  windows. Run on whole staging buffers and on the accumulator at the contents `xs` the step before left, it hands
  the operand buffers back unchanged, and the two result buffers and the accumulator overwritten by the stores the
  run records.
-/
import proofs.«123030_j16269336118035_1_alg».proof.Proof.KFrameB.RunMiddle

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the last step leaves in the hidden-state window, the cell-state window and the accumulator, with the
    proof of the body's run. -/
noncomputable def runLast (c : Dev nD) (i : grid0.Coords) (arg2 : Memref sig .tc .vmem S256x128 .bf16) (harg2 : arg2.IsWhole) (arg3 : Memref sig .tc .vmem S128x8192 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : ¬condFirst i) (hc1 : condLast i)
    (x0 : Vec F S256x128 .bf16) (x1 : Vec F S128x8192 .bf16) (x2 : Vec F S1x8192 .f32) (x3 : Vec F S256x2048 .f32) (xs : Vec F S256x8192 .f32) :
    Σ' (L4 : List (View.Piece (Elt F) S256x2048 .f32)) (L5 : List (View.Piece (Elt F) S256x2048 .f32)), { LS : List (View.Piece (Elt F) S256x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc0__lstm_kernel i arg2 harg2 arg3 harg3 arg4 harg4 arg5 harg5 arg6 harg6 arg7 harg7 arg8 harg8) K } := by
  refine ⟨?_, ?_, ?_, fun E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3
    obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Cert.Kernel.Hand

end
-- ==== Proof.KFrameB.Frame.lean ====
/-
  The fused LSTM-cell kernel call runs to its end, and what it leaves behind.

  The 512 grid points come in 16 runs of 32 steps. Within a run the accumulator is carried from step to step in
  scratch memory: the first step clears it and adds its product, every later step adds its product to what the step
  before left, and the last step also turns the finished accumulator into the new hidden and cell states and stores
  them into the two result windows, which the pipeline then writes back to the result arrays. `stateAt` records, by
  recursion on the grid point, what the two result windows and the accumulator hold after each point; the pipeline's
  bookkeeping is stated over it, the kernel body is shown to meet it at every point, and the whole program's run
  follows: it terminates, nothing faults, every argument ends as it started, and each result array ends at the
  blocks the last steps stored.
-/
import proofs.«123030_j16269336118035_1_alg».proof.Proof.KFrameB.RunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three kinds of step at a grid point -/

/-- A first step at grid point `t`, on the staging buffers the pipeline passes there and the operand blocks of `t`. -/
abbrev firstAt (c : Dev nD) (t : Fin cfg0.N) (h0 : t.val % 32 = 0) (h1 : ¬t.val % 32 = 31) :=
  runFirst (F := F) c (grid0.coords t) (ms0_0 t) (hs0_0 t) (ms0_1 t) (hs0_1 t) (ms0_2 t) (hs0_2 t) (ms0_3 t) (hs0_3 t) (ms0_4 t) (hs0_4 t) (ms0_5 t) (hs0_5 t) accM (Memref.isWhole_whole _) ((hcondFirst t).mpr h0) (fun h => h1 ((hcondLast t).mp h)) (iblk m c 0 t) (iblk m c 1 t) (iblk m c 2 t) (iblk m c 3 t)
/-- A middle step at grid point `t`, the accumulator holding `xs`. -/
abbrev middleAt (c : Dev nD) (t : Fin cfg0.N) (h0 : ¬t.val % 32 = 0) (h1 : ¬t.val % 32 = 31) (xs : Vec F S256x8192 .f32) :=
  runMiddle (F := F) c (grid0.coords t) (ms0_0 t) (hs0_0 t) (ms0_1 t) (hs0_1 t) (ms0_2 t) (hs0_2 t) (ms0_3 t) (hs0_3 t) (ms0_4 t) (hs0_4 t) (ms0_5 t) (hs0_5 t) accM (Memref.isWhole_whole _) (fun h => h0 ((hcondFirst t).mp h)) (fun h => h1 ((hcondLast t).mp h)) (iblk m c 0 t) (iblk m c 1 t) (iblk m c 2 t) (iblk m c 3 t) xs
/-- The last step at grid point `t`, the accumulator holding `xs`. -/
abbrev lastAt (c : Dev nD) (t : Fin cfg0.N) (h0 : ¬t.val % 32 = 0) (h1 : t.val % 32 = 31) (xs : Vec F S256x8192 .f32) :=
  runLast (F := F) c (grid0.coords t) (ms0_0 t) (hs0_0 t) (ms0_1 t) (hs0_1 t) (ms0_2 t) (hs0_2 t) (ms0_3 t) (hs0_3 t) (ms0_4 t) (hs0_4 t) (ms0_5 t) (hs0_5 t) accM (Memref.isWhole_whole _) (fun h => h0 ((hcondFirst t).mp h)) ((hcondLast t).mpr h1) (iblk m c 0 t) (iblk m c 1 t) (iblk m c 2 t) (iblk m c 3 t) xs

/-- Views through which the contents of a result window and of the accumulator are stated. -/
abbrev VO4 : View sig .tc .vmem S256x2048 .f32 := (Memref.whole cc0_stg4_0 : Memref sig .tc .vmem S256x2048 .f32).view
abbrev VO5 : View sig .tc .vmem S256x2048 .f32 := (Memref.whole cc0_stg5_0 : Memref sig .tc .vmem S256x2048 .f32).view
abbrev VS : View sig .tc .vmem S256x8192 .f32 := (accM : Memref sig .tc .vmem S256x8192 .f32).view

/-- The stores of a first step cover the whole accumulator. -/
theorem accCoverFirst (c : Dev nD) (t : Fin cfg0.N) (h0 : t.val % 32 = 0) (h1 : ¬t.val % 32 = 31) (y : S256x8192.Idx) :
    ∃ pc ∈ (firstAt m c t h0 h1).1, y ∈ pc.1.set :=
  View.cover_of_tiledL (firstAt m c t h0 h1).1 S256x8192.size (by sl_kernel_rfl) y
/-- What a first step leaves in the accumulator. -/
def accFirst (c : Dev nD) (t : Fin cfg0.N) (h0 : t.val % 32 = 0) (h1 : ¬t.val % 32 = 31) : Vec F S256x8192 .f32 :=
  VS.read (Elt F) (VS.writes (Elt F) VS.junk (firstAt m c t h0 h1).1)

/-- The stores of a middle step cover the whole accumulator. -/
theorem accCoverMiddle (c : Dev nD) (t : Fin cfg0.N) (h0 : ¬t.val % 32 = 0) (h1 : ¬t.val % 32 = 31) (xs : Vec F S256x8192 .f32) (y : S256x8192.Idx) :
    ∃ pc ∈ (middleAt m c t h0 h1 xs).1, y ∈ pc.1.set :=
  View.cover_of_tiledL (middleAt m c t h0 h1 xs).1 S256x8192.size (by sl_kernel_rfl) y
/-- What a middle step leaves in the accumulator. -/
def accMiddle (c : Dev nD) (t : Fin cfg0.N) (h0 : ¬t.val % 32 = 0) (h1 : ¬t.val % 32 = 31) (xs : Vec F S256x8192 .f32) : Vec F S256x8192 .f32 :=
  VS.read (Elt F) (VS.writes (Elt F) VS.junk (middleAt m c t h0 h1 xs).1)

/-- The stores of the last step cover the hidden-state window, the cell-state window and the accumulator. -/
theorem hidCoverLast (c : Dev nD) (t : Fin cfg0.N) (h0 : ¬t.val % 32 = 0) (h1 : t.val % 32 = 31) (xs : Vec F S256x8192 .f32) (y : S256x2048.Idx) :
    ∃ pc ∈ (lastAt m c t h0 h1 xs).1, y ∈ pc.1.set :=
  View.cover_of_tiledL (lastAt m c t h0 h1 xs).1 S256x2048.size (by sl_kernel_rfl) y
theorem cellCoverLast (c : Dev nD) (t : Fin cfg0.N) (h0 : ¬t.val % 32 = 0) (h1 : t.val % 32 = 31) (xs : Vec F S256x8192 .f32) (y : S256x2048.Idx) :
    ∃ pc ∈ (lastAt m c t h0 h1 xs).2.1, y ∈ pc.1.set :=
  View.cover_of_tiledL (lastAt m c t h0 h1 xs).2.1 S256x2048.size (by sl_kernel_rfl) y
theorem accCoverLast (c : Dev nD) (t : Fin cfg0.N) (h0 : ¬t.val % 32 = 0) (h1 : t.val % 32 = 31) (xs : Vec F S256x8192 .f32) (y : S256x8192.Idx) :
    ∃ pc ∈ (lastAt m c t h0 h1 xs).2.2.1, y ∈ pc.1.set :=
  View.cover_of_tiledL (lastAt m c t h0 h1 xs).2.2.1 S256x8192.size (by sl_kernel_rfl) y
/-- What the last step leaves in the hidden-state window, in the cell-state window and in the accumulator. -/
def hidLast (c : Dev nD) (t : Fin cfg0.N) (h0 : ¬t.val % 32 = 0) (h1 : t.val % 32 = 31) (xs : Vec F S256x8192 .f32) : Vec F S256x2048 .f32 :=
  VO4.read (Elt F) (VO4.writes (Elt F) VO4.junk (lastAt m c t h0 h1 xs).1)
def cellLast (c : Dev nD) (t : Fin cfg0.N) (h0 : ¬t.val % 32 = 0) (h1 : t.val % 32 = 31) (xs : Vec F S256x8192 .f32) : Vec F S256x2048 .f32 :=
  VO5.read (Elt F) (VO5.writes (Elt F) VO5.junk (lastAt m c t h0 h1 xs).2.1)
def accLast (c : Dev nD) (t : Fin cfg0.N) (h0 : ¬t.val % 32 = 0) (h1 : t.val % 32 = 31) (xs : Vec F S256x8192 .f32) : Vec F S256x8192 .f32 :=
  VS.read (Elt F) (VS.writes (Elt F) VS.junk (lastAt m c t h0 h1 xs).2.2.1)

/-- A result window at a step that stores nothing into it: contents nobody reads. -/
def unread4 : Vec F S256x2048 .f32 := VO4.read (Elt F) VO4.junk

/-! ## What the result windows and the accumulator hold after each grid point -/

/-- After grid point `n`: (hidden-state window, cell-state window, accumulator). A first step starts the accumulator
    afresh; a middle step and the last step add to what point `n - 1` left; only the last step stores the states. -/
def stateAt (c : Dev nD) : (n : ℕ) → n < cfg0.N → Vec F S256x2048 .f32 × Vec F S256x2048 .f32 × Vec F S256x8192 .f32
  | 0, hn => (unread4, unread4, accFirst m c ⟨0, hn⟩ (Nat.zero_mod _) (show ¬(0 : ℕ) % 32 = 31 by decide))
  | n + 1, hn =>
    if h0 : (n + 1) % 32 = 0 then
      (unread4, unread4, accFirst m c ⟨n + 1, hn⟩ h0 (fun h => by have h' : (n + 1) % 32 = 31 := h; omega))
    else
      if h1 : (n + 1) % 32 = 31 then
        (hidLast m c ⟨n + 1, hn⟩ h0 h1 (stateAt c n (Nat.lt_of_succ_lt hn)).2.2,
         cellLast m c ⟨n + 1, hn⟩ h0 h1 (stateAt c n (Nat.lt_of_succ_lt hn)).2.2,
         accLast m c ⟨n + 1, hn⟩ h0 h1 (stateAt c n (Nat.lt_of_succ_lt hn)).2.2)
      else
        (unread4, unread4, accMiddle m c ⟨n + 1, hn⟩ h0 h1 (stateAt c n (Nat.lt_of_succ_lt hn)).2.2)

/-- `stateAt` at a first step. -/
theorem stateAt_first (c : Dev nD) (t : Fin cfg0.N) (h0 : t.val % 32 = 0) (h1 : ¬t.val % 32 = 31) :
    stateAt m c t.val t.isLt = (unread4, unread4, accFirst m c t h0 h1) := by
  obtain ⟨n, hn⟩ := t
  cases n with
  | zero => exact rfl
  | succ n => exact (dif_pos h0).trans rfl

/-- `stateAt` at a middle step, over what the point before left. -/
theorem stateAt_middle (c : Dev nD) (t : Fin cfg0.N) (h0 : ¬t.val % 32 = 0) (h1 : ¬t.val % 32 = 31) :
    stateAt m c t.val t.isLt = (unread4, unread4, accMiddle m c t h0 h1 (stateAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `stateAt` at a last step, over what the point before left. -/
theorem stateAt_last (c : Dev nD) (t : Fin cfg0.N) (h0 : ¬t.val % 32 = 0) (h1 : t.val % 32 = 31) :
    stateAt m c t.val t.isLt = (hidLast m c t h0 h1 (stateAt m c (t.val - 1) (Nat.lt_of_le_of_lt (Nat.sub_le _ _) t.isLt)).2.2,
      cellLast m c t h0 h1 (stateAt m c (t.val - 1) (Nat.lt_of_le_of_lt (Nat.sub_le _ _) t.isLt)).2.2,
      accLast m c t h0 h1 (stateAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between grid points -/

/-- Before grid point `n`: before the first point the accumulator holds anything; afterwards it holds what point
    `n - 1` left. The random-number register is at some state throughout. -/
def PhiS (c : Dev nD) : (n : ℕ) → n ≤ cfg0.N → sProp 𝕄
  | 0, _ => Pipeline.ΦA spec0 c
  | n + 1, hn => iprop(iprop(owns (c : Thread nD τ) accM fullShare ((stateAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare ((stateAt m c n hn).2.2)) ∗ (∃ r, prngReg c r)) := rfl

theorem PhiS_pos (c : Dev nD) (n : ℕ) (h : n ≤ cfg0.N) (hz : n ≠ 0) :
    PhiS m c n h = iprop(iprop(owns (c : Thread nD τ) accM fullShare ((stateAt m c (n - 1) (by omega)).2.2)) ∗ (∃ r, prngReg c r)) := by
  cases n with
  | zero => exact absurd rfl hz
  | succ n => rfl

/-! ## The pipeline's bookkeeping -/

/-- The arrays as the call finds them; after the body at point `t` each operand's buffer holds its block and the result
    windows hold `stateAt`'s components; the invariant is `PhiS`; nothing is owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (stateAt m c t.val t.isLt).1
    | ⟨5, _⟩ => (stateAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (stateAt m c t.val t.isLt).1 := by dsimp only [dats]
theorem after0_5 (c : Dev nD) (t : Fin cfg0.N) : (dats m 0 c).after 5 t = (stateAt m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- An operand's buffer is handed back at its block. -/
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]

/-! ## The kernel body meets the bookkeeping at every grid point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 8000000 in
/-- The body at any grid point: the operand buffers hold their blocks; which kind of step the point is decides which
    run applies; the invariant hands the body the accumulator at what the point before left (at anything before a
    first step) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3]
  have hN : t.val < 512 := lt_of_lt_of_eq t.isLt (show cfg0.N = 512 from N_0)
  by_cases h0 : t.val % 32 = 0
  · have h1 : ¬t.val % 32 = 31 := by omega
    rw [Dat.leavesExact_idle (dats m 0 c) 4 t (idleAt0_4 t (fun h => h1 ((hcondLast t).mp h))) (noFlush0_4 t (fun h => h1 ((hcondLast t).mp h)))]
    rw [Dat.leavesExact_idle (dats m 0 c) 5 t (idleAt0_5 t (fun h => h1 ((hcondLast t).mp h))) (noFlush0_5 t (fun h => h1 ((hcondLast t).mp h)))]
    rw [stateAt_first m c t h0 h1]
    unfold accFirst; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩⟩
      iapply ((firstAt m c t h0 h1).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hg]
      · isplitl [HS0]
        · unfold owns; iexists _; isplitr
          swap; · iexact HS0
          ipureintro; exact View.read_writes_of_cover _ _ _ _ _ (accCoverFirst m c t h0 h1)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply ((firstAt m c t h0 h1).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hg]
      · isplitl [HS0]
        · unfold owns; iexists _; isplitr
          swap; · iexact HS0
          ipureintro; exact View.read_writes_of_cover _ _ _ _ _ (accCoverFirst m c t h0 h1)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun e => h0 (by rw [e])
    by_cases h1 : t.val % 32 = 31
    · rw [show (dats m 0 c).leavesExact 4 t = owns (c : Thread nD τ) (ms0_4 t) fullShare ((dats m 0 c).after 4 t) from by
        unfold Dat.leavesExact; rw [liveAt0_4 t ((hcondLast t).mpr h1)], after0_4]
      rw [show (dats m 0 c).leavesExact 5 t = owns (c : Thread nD τ) (ms0_5 t) fullShare ((dats m 0 c).after 5 t) from by
        unfold Dat.leavesExact; rw [liveAt0_5 t ((hcondLast t).mpr h1)], after0_5]
      rw [stateAt_last m c t h0 h1]
      unfold hidLast cellLast accLast; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply ((lastAt m c t h0 h1 _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hg]
      · isplitl [HS0]
        · unfold owns; iexists _; isplitr
          swap; · iexact HS0
          ipureintro; exact View.read_writes_of_cover _ _ _ _ _ (accCoverLast m c t h0 h1 _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (hidCoverLast m c t h0 h1 _)
      unfold owns; iexists _; isplitr
      swap; · iexact H5
      ipureintro; exact View.read_writes_of_cover _ _ _ _ _ (cellCoverLast m c t h0 h1 _)
    · rw [Dat.leavesExact_idle (dats m 0 c) 4 t (idleAt0_4 t (fun h => h1 ((hcondLast t).mp h))) (noFlush0_4 t (fun h => h1 ((hcondLast t).mp h)))]
      rw [Dat.leavesExact_idle (dats m 0 c) 5 t (idleAt0_5 t (fun h => h1 ((hcondLast t).mp h))) (noFlush0_5 t (fun h => h1 ((hcondLast t).mp h)))]
      rw [stateAt_middle m c t h0 h1]
      unfold accMiddle; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply ((middleAt m c t h0 h1 _).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hg]
      · isplitl [HS0]
        · unfold owns; iexists _; isplitr
          swap; · iexact HS0
          ipureintro; exact View.read_writes_of_cover _ _ _ _ _ (accCoverMiddle m c t h0 h1 _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The pipeline's obligation on the body, at every grid point. -/
theorem body_obligation (c : Dev nD) : BodyObligation (dats (F := F) m 0 c) (defs₀ (F := F)) Variants.none () Set.univ := fun t => by
  rw [bigSep_W0, bigSep_W0]
  exact sound_body m c t

/-- What the call hands the kernel is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the accumulator's contents are forgotten again. -/
theorem hout (c : Dev nD) : (dats m 0 c).Φ (Fin.last cfg0.N) ⊢ Pipeline.ΦA spec0 c := by
  have ht : (Fin.last cfg0.N).val ≠ 0 := by rw [Fin.val_last]; have : cfg0.N = 512 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨HS0, Hg⟩
  isplitl [HS0]
  · iexists _; iexact HS0
  iexact Hg

/-! ## The run -/

set_option backward.isDefEq.respectTransparency.types false in
/-- Every weakly fair execution of the program terminates without a fault; afterwards every window's array holds what
    the pipeline's bookkeeping computes from `dats`, and every other buffer what the call found in it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The program runs to its end and leaves every one of its eleven arguments as it found it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Hand

end
-- ==== Proof.KFrame.Kit.lean ====
/-
  The fused LSTM-cell kernel call, seen from outside the kernel body.

  Before the call the host joins the inputs with the previous hidden states (4096 × 4096), joins the four gates'
  weight matrices and transposes them (4096 × 8192), and joins the four bias vectors into one row (1 × 8192); the
  call then walks a 16 × 32 grid: 16 blocks of 256 batch rows, and for each of them 32 steps along the contracted
  axis, 128 entries at a time. None of the host operations writes an argument of the program, so after the call
  every argument still holds what it held at the start.

  This module fixes what the call finds in memory (V), the block of each operand a grid point works on (iblk),
  the two conditions the kernel body branches on in closed form over the 512 grid points — "first step along the
  contracted axis" and "last step" —, and where the two result windows are idle (every step but the last).
-/
import proofs.«123030_j16269336118035_1_alg».proof.Proof.Gen.KernelIdeal.Launch
import proofs.«123030_j16269336118035_1_alg».proof.Proof.Gen.KernelIdeal.Skeleton
import proofs.«123030_j16269336118035_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Memory when the kernel call is entered -/

/-- What core `c`'s buffers hold when the kernel call is entered: the launch contents after the seven host operations. -/
abbrev V (c : Dev nD) (b : Ref sig .tc) : Buf (Elt F) ((c : Thread nD τ).loc b) := StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- The program is the seven host operations followed by the kernel call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the kernel call writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- No host operation before the kernel call writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- No host operation before the kernel call writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- No host operation before the kernel call writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- No host operation before the kernel call writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- No host operation before the kernel call writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- No host operation before the kernel call writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- No host operation before the kernel call writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- No host operation before the kernel call writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- No host operation before the kernel call writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- No host operation before the kernel call writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-! ## The operands' blocks -/

/-- The block of window `w`'s array that grid point `t` works on, read off the array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every grid point, whether the pipeline fetched it there
    or the block index did not move since the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every grid point, whether the pipeline fetched it there
    or the block index did not move since the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every grid point, whether the pipeline fetched it there
    or the block index did not move since the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every grid point, whether the pipeline fetched it there
    or the block index did not move since the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## From the arrays after the call to the arguments unchanged -/

/-- If after the run every window's array holds what the pipeline's bookkeeping says and every other buffer what the
    call found, then every argument of the program holds what it held at the start: the old cell state is an input
    window's array, which the pipeline only reads; the other ten arguments are not touched by the call at all. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 3).trans (((dats 0 c).arrAt_in 3 rfl _).trans ((hA c 3).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The two conditions of the kernel body -/

/-- "This is the first step along the contracted axis", as the body computes it from the grid coordinates. -/
abbrev condFirst (i : grid0.Coords) : Prop := (Scalar.cmpi .ne (Scalar.extui (Scalar.cmpi .eq (BitVec.ofNat 32 (i 1).val) 0#32)) 0#32) = 1#1
/-- It holds at the grid points whose number is a multiple of 32. -/
theorem hcondFirst : ∀ t : Fin cfg0.N, condFirst (grid0.coords t) ↔ t.val % 32 = 0 :=
  (by decide +kernel : ∀ t : Fin grid0.N, condFirst (grid0.coords t) ↔ t.val % 32 = 0)

/-- "This is the last step along the contracted axis". -/
abbrev condLast (i : grid0.Coords) : Prop := k0_cond2 i = 1#1
/-- It holds at the grid points whose number is 31 modulo 32. -/
theorem hcondLast : ∀ t : Fin cfg0.N, condLast (grid0.coords t) ↔ t.val % 32 = 31 :=
  (by decide +kernel : ∀ t : Fin grid0.N, condLast (grid0.coords t) ↔ t.val % 32 = 31)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Before the last step the body stores nothing into the hidden-state window and the pipeline does not write it back. -/
theorem idleAt0_4 : ∀ t : Fin cfg0.N, ¬condLast (grid0.coords t) → cfg0.idle 4 (grid0.coords t) = true := by decide +kernel
theorem noFlush0_4 : ∀ t : Fin cfg0.N, ¬condLast (grid0.coords t) → (cfg0.win 4).flush t = false := by decide +kernel
/-- The same for the cell-state window. -/
theorem idleAt0_5 : ∀ t : Fin cfg0.N, ¬condLast (grid0.coords t) → cfg0.idle 5 (grid0.coords t) = true := by decide +kernel
theorem noFlush0_5 : ∀ t : Fin cfg0.N, ¬condLast (grid0.coords t) → (cfg0.win 5).flush t = false := by decide +kernel
/-- At the last step both result windows are live. -/
theorem liveAt0_4 : ∀ t : Fin cfg0.N, condLast (grid0.coords t) → cfg0.idle 4 (grid0.coords t) = false := by decide +kernel
theorem liveAt0_5 : ∀ t : Fin cfg0.N, condLast (grid0.coords t) → cfg0.idle 5 (grid0.coords t) = false := by decide +kernel

/-! ## The staging memrefs the body is called with -/

abbrev ms0_0 (t : Fin cfg0.N) : Memref sig .tc .vmem S256x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x8192 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x2048 .f32 := win0_5.stage (cfg0.slots t 5)
abbrev hs0_5 (t : Fin cfg0.N) : (ms0_5 t).IsWhole := hstage0_5 ((cfg0.slots t 5).cast nbuf0_5)
/-- The accumulator: 256 rows of the 8192 gate columns, kept in scratch memory from one step to the next. -/
abbrev accM : Memref sig .tc .vmem S256x8192 .f32 := Memref.whole cc0_scratch0

/-- What the kernel body may use beside its windows: the accumulator at some contents, and the random-number register. -/
theorem PhiA0_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Hand

end
-- ==== Proof.KFrame.RunFirst.lean ====
/-
  The kernel body at a FIRST step along the contracted axis (and not the last).

  The body clears the accumulator, then adds to it the product of the step's 256 × 128 block of inputs with the
  step's 128 × 8192 block of weights; it stores nothing into the two result windows. Run on whole staging buffers
  holding the four operand blocks, it hands every operand buffer and both result buffers back as it found them
  and leaves the accumulator overwritten by the list of stores the run records.
-/
import proofs.«123030_j16269336118035_1_alg».proof.Proof.KFrame.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores a first step leaves in the accumulator (latest first), with the proof that the body, run from the
    operand blocks `x0 … x3`, the result buffers at any contents and the accumulator at any contents, ends with
    everything but the accumulator unchanged and the accumulator overwritten by exactly those stores. -/
noncomputable def runFirst (c : Dev nD) (i : grid0.Coords) (arg2 : Memref sig .tc .vmem S256x128 .bf16) (harg2 : arg2.IsWhole) (arg3 : Memref sig .tc .vmem S128x8192 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : condFirst i) (hc1 : ¬condLast i)
    (x0 : Vec F S256x128 .bf16) (x1 : Vec F S128x8192 .bf16) (x2 : Vec F S1x8192 .f32) (x3 : Vec F S256x2048 .f32) :
    { LS : List (View.Piece (Elt F) S256x8192 .f32) //
      ∀ (xi4 xi5 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__lstm_kernel i arg2 harg2 arg3 harg3 arg4 harg4 arg5 harg5 arg6 harg6 arg7 harg7 arg8 harg8) K } := by
  refine ⟨?_, fun xi4 xi5 E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KFrame.RunMiddle.lean ====
/-
  The kernel body at a MIDDLE step along the contracted axis (neither the first nor the last).

  The body adds to the accumulator the product of the step's block of inputs with the step's block of weights and
  does nothing else. Run on whole staging buffers and on the accumulator at the contents `xs` the step before left,
  it hands everything back unchanged but the accumulator, overwritten by the stores the run records.
-/
import proofs.«123030_j16269336118035_1_alg».proof.Proof.KFrame.RunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores a middle step leaves in the accumulator, with the proof of the body's run from the operand blocks and
    the accumulator at `xs`. -/
noncomputable def runMiddle (c : Dev nD) (i : grid0.Coords) (arg2 : Memref sig .tc .vmem S256x128 .bf16) (harg2 : arg2.IsWhole) (arg3 : Memref sig .tc .vmem S128x8192 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : ¬condFirst i) (hc1 : ¬condLast i)
    (x0 : Vec F S256x128 .bf16) (x1 : Vec F S128x8192 .bf16) (x2 : Vec F S1x8192 .f32) (x3 : Vec F S256x2048 .f32) (xs : Vec F S256x8192 .f32) :
    { LS : List (View.Piece (Elt F) S256x8192 .f32) //
      ∀ (xi4 xi5 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__lstm_kernel i arg2 harg2 arg3 harg3 arg4 harg4 arg5 harg5 arg6 harg6 arg7 harg7 arg8 harg8) K } := by
  refine ⟨?_, fun xi4 xi5 E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KFrame.RunLast.lean ====
/-
  The kernel body at the LAST step along the contracted axis.

  The body adds the step's product to the accumulator, then adds the bias row to every row of the accumulator, cuts
  the four gates out of the 8192 columns, and stores the new hidden state and the new cell state into the two result
  windows. Run on whole staging buffers and on the accumulator at the contents `xs` the step before left, it hands
  the operand buffers back unchanged, and the two result buffers and the accumulator overwritten by the stores the
  run records.
-/
import proofs.«123030_j16269336118035_1_alg».proof.Proof.KFrame.RunMiddle

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the last step leaves in the hidden-state window, the cell-state window and the accumulator, with the
    proof of the body's run. -/
noncomputable def runLast (c : Dev nD) (i : grid0.Coords) (arg2 : Memref sig .tc .vmem S256x128 .bf16) (harg2 : arg2.IsWhole) (arg3 : Memref sig .tc .vmem S128x8192 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : ¬condFirst i) (hc1 : condLast i)
    (x0 : Vec F S256x128 .bf16) (x1 : Vec F S128x8192 .bf16) (x2 : Vec F S1x8192 .f32) (x3 : Vec F S256x2048 .f32) (xs : Vec F S256x8192 .f32) :
    Σ' (L4 : List (View.Piece (Elt F) S256x2048 .f32)) (L5 : List (View.Piece (Elt F) S256x2048 .f32)), { LS : List (View.Piece (Elt F) S256x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc0__lstm_kernel i arg2 harg2 arg3 harg3 arg4 harg4 arg5 harg5 arg6 harg6 arg7 harg7 arg8 harg8) K } := by
  refine ⟨?_, ?_, ?_, fun E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3
    obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Cert.KernelIdeal.Hand

end
-- ==== Proof.KFrame.Frame.lean ====
/-
  The fused LSTM-cell kernel call runs to its end, and what it leaves behind.

  The 512 grid points come in 16 runs of 32 steps. Within a run the accumulator is carried from step to step in
  scratch memory: the first step clears it and adds its product, every later step adds its product to what the step
  before left, and the last step also turns the finished accumulator into the new hidden and cell states and stores
  them into the two result windows, which the pipeline then writes back to the result arrays. `stateAt` records, by
  recursion on the grid point, what the two result windows and the accumulator hold after each point; the pipeline's
  bookkeeping is stated over it, the kernel body is shown to meet it at every point, and the whole program's run
  follows: it terminates, nothing faults, every argument ends as it started, and each result array ends at the
  blocks the last steps stored.
-/
import proofs.«123030_j16269336118035_1_alg».proof.Proof.KFrame.RunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three kinds of step at a grid point -/

/-- A first step at grid point `t`, on the staging buffers the pipeline passes there and the operand blocks of `t`. -/
abbrev firstAt (c : Dev nD) (t : Fin cfg0.N) (h0 : t.val % 32 = 0) (h1 : ¬t.val % 32 = 31) :=
  runFirst (F := F) c (grid0.coords t) (ms0_0 t) (hs0_0 t) (ms0_1 t) (hs0_1 t) (ms0_2 t) (hs0_2 t) (ms0_3 t) (hs0_3 t) (ms0_4 t) (hs0_4 t) (ms0_5 t) (hs0_5 t) accM (Memref.isWhole_whole _) ((hcondFirst t).mpr h0) (fun h => h1 ((hcondLast t).mp h)) (iblk m c 0 t) (iblk m c 1 t) (iblk m c 2 t) (iblk m c 3 t)
/-- A middle step at grid point `t`, the accumulator holding `xs`. -/
abbrev middleAt (c : Dev nD) (t : Fin cfg0.N) (h0 : ¬t.val % 32 = 0) (h1 : ¬t.val % 32 = 31) (xs : Vec F S256x8192 .f32) :=
  runMiddle (F := F) c (grid0.coords t) (ms0_0 t) (hs0_0 t) (ms0_1 t) (hs0_1 t) (ms0_2 t) (hs0_2 t) (ms0_3 t) (hs0_3 t) (ms0_4 t) (hs0_4 t) (ms0_5 t) (hs0_5 t) accM (Memref.isWhole_whole _) (fun h => h0 ((hcondFirst t).mp h)) (fun h => h1 ((hcondLast t).mp h)) (iblk m c 0 t) (iblk m c 1 t) (iblk m c 2 t) (iblk m c 3 t) xs
/-- The last step at grid point `t`, the accumulator holding `xs`. -/
abbrev lastAt (c : Dev nD) (t : Fin cfg0.N) (h0 : ¬t.val % 32 = 0) (h1 : t.val % 32 = 31) (xs : Vec F S256x8192 .f32) :=
  runLast (F := F) c (grid0.coords t) (ms0_0 t) (hs0_0 t) (ms0_1 t) (hs0_1 t) (ms0_2 t) (hs0_2 t) (ms0_3 t) (hs0_3 t) (ms0_4 t) (hs0_4 t) (ms0_5 t) (hs0_5 t) accM (Memref.isWhole_whole _) (fun h => h0 ((hcondFirst t).mp h)) ((hcondLast t).mpr h1) (iblk m c 0 t) (iblk m c 1 t) (iblk m c 2 t) (iblk m c 3 t) xs

/-- Views through which the contents of a result window and of the accumulator are stated. -/
abbrev VO4 : View sig .tc .vmem S256x2048 .f32 := (Memref.whole cc0_stg4_0 : Memref sig .tc .vmem S256x2048 .f32).view
abbrev VO5 : View sig .tc .vmem S256x2048 .f32 := (Memref.whole cc0_stg5_0 : Memref sig .tc .vmem S256x2048 .f32).view
abbrev VS : View sig .tc .vmem S256x8192 .f32 := (accM : Memref sig .tc .vmem S256x8192 .f32).view

/-- The stores of a first step cover the whole accumulator. -/
theorem accCoverFirst (c : Dev nD) (t : Fin cfg0.N) (h0 : t.val % 32 = 0) (h1 : ¬t.val % 32 = 31) (y : S256x8192.Idx) :
    ∃ pc ∈ (firstAt m c t h0 h1).1, y ∈ pc.1.set :=
  View.cover_of_tiledL (firstAt m c t h0 h1).1 S256x8192.size (by sl_kernel_rfl) y
/-- What a first step leaves in the accumulator. -/
def accFirst (c : Dev nD) (t : Fin cfg0.N) (h0 : t.val % 32 = 0) (h1 : ¬t.val % 32 = 31) : Vec F S256x8192 .f32 :=
  VS.read (Elt F) (VS.writes (Elt F) VS.junk (firstAt m c t h0 h1).1)

/-- The stores of a middle step cover the whole accumulator. -/
theorem accCoverMiddle (c : Dev nD) (t : Fin cfg0.N) (h0 : ¬t.val % 32 = 0) (h1 : ¬t.val % 32 = 31) (xs : Vec F S256x8192 .f32) (y : S256x8192.Idx) :
    ∃ pc ∈ (middleAt m c t h0 h1 xs).1, y ∈ pc.1.set :=
  View.cover_of_tiledL (middleAt m c t h0 h1 xs).1 S256x8192.size (by sl_kernel_rfl) y
/-- What a middle step leaves in the accumulator. -/
def accMiddle (c : Dev nD) (t : Fin cfg0.N) (h0 : ¬t.val % 32 = 0) (h1 : ¬t.val % 32 = 31) (xs : Vec F S256x8192 .f32) : Vec F S256x8192 .f32 :=
  VS.read (Elt F) (VS.writes (Elt F) VS.junk (middleAt m c t h0 h1 xs).1)

/-- The stores of the last step cover the hidden-state window, the cell-state window and the accumulator. -/
theorem hidCoverLast (c : Dev nD) (t : Fin cfg0.N) (h0 : ¬t.val % 32 = 0) (h1 : t.val % 32 = 31) (xs : Vec F S256x8192 .f32) (y : S256x2048.Idx) :
    ∃ pc ∈ (lastAt m c t h0 h1 xs).1, y ∈ pc.1.set :=
  View.cover_of_tiledL (lastAt m c t h0 h1 xs).1 S256x2048.size (by sl_kernel_rfl) y
theorem cellCoverLast (c : Dev nD) (t : Fin cfg0.N) (h0 : ¬t.val % 32 = 0) (h1 : t.val % 32 = 31) (xs : Vec F S256x8192 .f32) (y : S256x2048.Idx) :
    ∃ pc ∈ (lastAt m c t h0 h1 xs).2.1, y ∈ pc.1.set :=
  View.cover_of_tiledL (lastAt m c t h0 h1 xs).2.1 S256x2048.size (by sl_kernel_rfl) y
theorem accCoverLast (c : Dev nD) (t : Fin cfg0.N) (h0 : ¬t.val % 32 = 0) (h1 : t.val % 32 = 31) (xs : Vec F S256x8192 .f32) (y : S256x8192.Idx) :
    ∃ pc ∈ (lastAt m c t h0 h1 xs).2.2.1, y ∈ pc.1.set :=
  View.cover_of_tiledL (lastAt m c t h0 h1 xs).2.2.1 S256x8192.size (by sl_kernel_rfl) y
/-- What the last step leaves in the hidden-state window, in the cell-state window and in the accumulator. -/
def hidLast (c : Dev nD) (t : Fin cfg0.N) (h0 : ¬t.val % 32 = 0) (h1 : t.val % 32 = 31) (xs : Vec F S256x8192 .f32) : Vec F S256x2048 .f32 :=
  VO4.read (Elt F) (VO4.writes (Elt F) VO4.junk (lastAt m c t h0 h1 xs).1)
def cellLast (c : Dev nD) (t : Fin cfg0.N) (h0 : ¬t.val % 32 = 0) (h1 : t.val % 32 = 31) (xs : Vec F S256x8192 .f32) : Vec F S256x2048 .f32 :=
  VO5.read (Elt F) (VO5.writes (Elt F) VO5.junk (lastAt m c t h0 h1 xs).2.1)
def accLast (c : Dev nD) (t : Fin cfg0.N) (h0 : ¬t.val % 32 = 0) (h1 : t.val % 32 = 31) (xs : Vec F S256x8192 .f32) : Vec F S256x8192 .f32 :=
  VS.read (Elt F) (VS.writes (Elt F) VS.junk (lastAt m c t h0 h1 xs).2.2.1)

/-- A result window at a step that stores nothing into it: contents nobody reads. -/
def unread4 : Vec F S256x2048 .f32 := VO4.read (Elt F) VO4.junk

/-! ## What the result windows and the accumulator hold after each grid point -/

/-- After grid point `n`: (hidden-state window, cell-state window, accumulator). A first step starts the accumulator
    afresh; a middle step and the last step add to what point `n - 1` left; only the last step stores the states. -/
def stateAt (c : Dev nD) : (n : ℕ) → n < cfg0.N → Vec F S256x2048 .f32 × Vec F S256x2048 .f32 × Vec F S256x8192 .f32
  | 0, hn => (unread4, unread4, accFirst m c ⟨0, hn⟩ (Nat.zero_mod _) (show ¬(0 : ℕ) % 32 = 31 by decide))
  | n + 1, hn =>
    if h0 : (n + 1) % 32 = 0 then
      (unread4, unread4, accFirst m c ⟨n + 1, hn⟩ h0 (fun h => by have h' : (n + 1) % 32 = 31 := h; omega))
    else
      if h1 : (n + 1) % 32 = 31 then
        (hidLast m c ⟨n + 1, hn⟩ h0 h1 (stateAt c n (Nat.lt_of_succ_lt hn)).2.2,
         cellLast m c ⟨n + 1, hn⟩ h0 h1 (stateAt c n (Nat.lt_of_succ_lt hn)).2.2,
         accLast m c ⟨n + 1, hn⟩ h0 h1 (stateAt c n (Nat.lt_of_succ_lt hn)).2.2)
      else
        (unread4, unread4, accMiddle m c ⟨n + 1, hn⟩ h0 h1 (stateAt c n (Nat.lt_of_succ_lt hn)).2.2)

/-- `stateAt` at a first step. -/
theorem stateAt_first (c : Dev nD) (t : Fin cfg0.N) (h0 : t.val % 32 = 0) (h1 : ¬t.val % 32 = 31) :
    stateAt m c t.val t.isLt = (unread4, unread4, accFirst m c t h0 h1) := by
  obtain ⟨n, hn⟩ := t
  cases n with
  | zero => exact rfl
  | succ n => exact (dif_pos h0).trans rfl

/-- `stateAt` at a middle step, over what the point before left. -/
theorem stateAt_middle (c : Dev nD) (t : Fin cfg0.N) (h0 : ¬t.val % 32 = 0) (h1 : ¬t.val % 32 = 31) :
    stateAt m c t.val t.isLt = (unread4, unread4, accMiddle m c t h0 h1 (stateAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `stateAt` at a last step, over what the point before left. -/
theorem stateAt_last (c : Dev nD) (t : Fin cfg0.N) (h0 : ¬t.val % 32 = 0) (h1 : t.val % 32 = 31) :
    stateAt m c t.val t.isLt = (hidLast m c t h0 h1 (stateAt m c (t.val - 1) (Nat.lt_of_le_of_lt (Nat.sub_le _ _) t.isLt)).2.2,
      cellLast m c t h0 h1 (stateAt m c (t.val - 1) (Nat.lt_of_le_of_lt (Nat.sub_le _ _) t.isLt)).2.2,
      accLast m c t h0 h1 (stateAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between grid points -/

/-- Before grid point `n`: before the first point the accumulator holds anything; afterwards it holds what point
    `n - 1` left. The random-number register is at some state throughout. -/
def PhiS (c : Dev nD) : (n : ℕ) → n ≤ cfg0.N → sProp 𝕄
  | 0, _ => Pipeline.ΦA spec0 c
  | n + 1, hn => iprop(iprop(owns (c : Thread nD τ) accM fullShare ((stateAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare ((stateAt m c n hn).2.2)) ∗ (∃ r, prngReg c r)) := rfl

theorem PhiS_pos (c : Dev nD) (n : ℕ) (h : n ≤ cfg0.N) (hz : n ≠ 0) :
    PhiS m c n h = iprop(iprop(owns (c : Thread nD τ) accM fullShare ((stateAt m c (n - 1) (by omega)).2.2)) ∗ (∃ r, prngReg c r)) := by
  cases n with
  | zero => exact absurd rfl hz
  | succ n => rfl

/-! ## The pipeline's bookkeeping -/

/-- The arrays as the call finds them; after the body at point `t` each operand's buffer holds its block and the result
    windows hold `stateAt`'s components; the invariant is `PhiS`; nothing is owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (stateAt m c t.val t.isLt).1
    | ⟨5, _⟩ => (stateAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (stateAt m c t.val t.isLt).1 := by dsimp only [dats]
theorem after0_5 (c : Dev nD) (t : Fin cfg0.N) : (dats m 0 c).after 5 t = (stateAt m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- An operand's buffer is handed back at its block. -/
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]

/-! ## The kernel body meets the bookkeeping at every grid point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 8000000 in
/-- The body at any grid point: the operand buffers hold their blocks; which kind of step the point is decides which
    run applies; the invariant hands the body the accumulator at what the point before left (at anything before a
    first step) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3]
  have hN : t.val < 512 := lt_of_lt_of_eq t.isLt (show cfg0.N = 512 from N_0)
  by_cases h0 : t.val % 32 = 0
  · have h1 : ¬t.val % 32 = 31 := by omega
    rw [Dat.leavesExact_idle (dats m 0 c) 4 t (idleAt0_4 t (fun h => h1 ((hcondLast t).mp h))) (noFlush0_4 t (fun h => h1 ((hcondLast t).mp h)))]
    rw [Dat.leavesExact_idle (dats m 0 c) 5 t (idleAt0_5 t (fun h => h1 ((hcondLast t).mp h))) (noFlush0_5 t (fun h => h1 ((hcondLast t).mp h)))]
    rw [stateAt_first m c t h0 h1]
    unfold accFirst; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩⟩
      iapply ((firstAt m c t h0 h1).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hg]
      · isplitl [HS0]
        · unfold owns; iexists _; isplitr
          swap; · iexact HS0
          ipureintro; exact View.read_writes_of_cover _ _ _ _ _ (accCoverFirst m c t h0 h1)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply ((firstAt m c t h0 h1).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hg]
      · isplitl [HS0]
        · unfold owns; iexists _; isplitr
          swap; · iexact HS0
          ipureintro; exact View.read_writes_of_cover _ _ _ _ _ (accCoverFirst m c t h0 h1)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun e => h0 (by rw [e])
    by_cases h1 : t.val % 32 = 31
    · rw [show (dats m 0 c).leavesExact 4 t = owns (c : Thread nD τ) (ms0_4 t) fullShare ((dats m 0 c).after 4 t) from by
        unfold Dat.leavesExact; rw [liveAt0_4 t ((hcondLast t).mpr h1)], after0_4]
      rw [show (dats m 0 c).leavesExact 5 t = owns (c : Thread nD τ) (ms0_5 t) fullShare ((dats m 0 c).after 5 t) from by
        unfold Dat.leavesExact; rw [liveAt0_5 t ((hcondLast t).mpr h1)], after0_5]
      rw [stateAt_last m c t h0 h1]
      unfold hidLast cellLast accLast; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply ((lastAt m c t h0 h1 _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hg]
      · isplitl [HS0]
        · unfold owns; iexists _; isplitr
          swap; · iexact HS0
          ipureintro; exact View.read_writes_of_cover _ _ _ _ _ (accCoverLast m c t h0 h1 _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (hidCoverLast m c t h0 h1 _)
      unfold owns; iexists _; isplitr
      swap; · iexact H5
      ipureintro; exact View.read_writes_of_cover _ _ _ _ _ (cellCoverLast m c t h0 h1 _)
    · rw [Dat.leavesExact_idle (dats m 0 c) 4 t (idleAt0_4 t (fun h => h1 ((hcondLast t).mp h))) (noFlush0_4 t (fun h => h1 ((hcondLast t).mp h)))]
      rw [Dat.leavesExact_idle (dats m 0 c) 5 t (idleAt0_5 t (fun h => h1 ((hcondLast t).mp h))) (noFlush0_5 t (fun h => h1 ((hcondLast t).mp h)))]
      rw [stateAt_middle m c t h0 h1]
      unfold accMiddle; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply ((middleAt m c t h0 h1 _).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hg]
      · isplitl [HS0]
        · unfold owns; iexists _; isplitr
          swap; · iexact HS0
          ipureintro; exact View.read_writes_of_cover _ _ _ _ _ (accCoverMiddle m c t h0 h1 _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The pipeline's obligation on the body, at every grid point. -/
theorem body_obligation (c : Dev nD) : BodyObligation (dats (F := F) m 0 c) (defs₀ (F := F)) Variants.none () Set.univ := fun t => by
  rw [bigSep_W0, bigSep_W0]
  exact sound_body m c t

/-- What the call hands the kernel is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the accumulator's contents are forgotten again. -/
theorem hout (c : Dev nD) : (dats m 0 c).Φ (Fin.last cfg0.N) ⊢ Pipeline.ΦA spec0 c := by
  have ht : (Fin.last cfg0.N).val ≠ 0 := by rw [Fin.val_last]; have : cfg0.N = 512 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨HS0, Hg⟩
  isplitl [HS0]
  · iexists _; iexact HS0
  iexact Hg

/-! ## The run -/

set_option backward.isDefEq.respectTransparency.types false in
/-- Every weakly fair execution of the program terminates without a fault; afterwards every window's array holds what
    the pipeline's bookkeeping computes from `dats`, and every other buffer what the call found in it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The program runs to its end and leaves every one of its eleven arguments as it found it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Hand

end
-- ==== Proof.KPieces.lean ====
/-
  What the stores of each kind of step amount to, as values.

  A first step leaves in the accumulator the step's product added to zero; a middle step and the last step leave the
  step's product added to what the accumulator held; the last step leaves in the hidden-state window and in the
  cell-state window the gate formulas evaluated on the finished accumulator, the bias row and the old cell block.
  Each statement reads the recorded stores back as one array: the latest store covers the whole buffer, and a value
  loaded after a store is the stored value.
-/
import proofs.«123030_j16269336118035_1_alg».proof.Proof.KFrame.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]

/-- The zero offset of a two-axis rectangle. -/
theorem hz2 : (![0, 0] : Fin 2 → Nat) = fun _ => 0 := funext fun a => by fin_cases a <;> rfl

/-- A first step leaves the cleared accumulator plus the step's product. -/
theorem first_acc (c : Dev nD) (i : grid0.Coords) (arg2 : Memref sig .tc .vmem S256x128 .bf16) (harg2 : arg2.IsWhole) (arg3 : Memref sig .tc .vmem S128x8192 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : condFirst i) (hc1 : ¬condLast i)
    (x0 : Vec F S256x128 .bf16) (x1 : Vec F S128x8192 .bf16) (x2 : Vec F S1x8192 .f32) (x3 : Vec F S256x2048 .f32) :
    VS.read (Elt F) (VS.writes (Elt F) VS.junk (runFirst c i arg2 harg2 arg3 harg3 arg4 harg4 arg5 harg5 arg6 harg6 arg7 harg7 arg8 harg8 hc0 hc1 x0 x1 x2 x3).1) = k0_pay2 (k0_pay1 (F := F)) x0 x1 := by
  rw [View.read_writes_eq_canon _ _ _ (fun y => View.cover_of_tiledL (runFirst c i arg2 harg2 arg3 harg3 arg4 harg4 arg5 harg5 arg6 harg6 arg7 harg7 arg8 harg8 hc0 hc1 x0 x1 x2 x3).1 S256x8192.size (by sl_kernel_rfl) y)]
  unfold runFirst
  dsimp only
  sl_unfold_words
  rw [View.canon_cons_unit_zero (S := S256x8192) hz2, View.readCov_unit_zero (S := S256x8192) _ hz2]
  simp only [View.readAt_eq_ld, harg2.read_unread, harg3.read_unread, View.ld_unit_zero (S := S256x128) hz2, View.ld_unit_zero (S := S128x8192) hz2, View.ld_unit_zero (S := S1x8192) hz2, View.ld_unit_zero (S := S256x2048) hz2, View.ld_unit_zero (S := S256x8192) hz2]

/-- A middle step leaves what the accumulator held plus the step's product. -/
theorem middle_acc (c : Dev nD) (i : grid0.Coords) (arg2 : Memref sig .tc .vmem S256x128 .bf16) (harg2 : arg2.IsWhole) (arg3 : Memref sig .tc .vmem S128x8192 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : ¬condFirst i) (hc1 : ¬condLast i)
    (x0 : Vec F S256x128 .bf16) (x1 : Vec F S128x8192 .bf16) (x2 : Vec F S1x8192 .f32) (x3 : Vec F S256x2048 .f32) (xs : Vec F S256x8192 .f32) :
    VS.read (Elt F) (VS.writes (Elt F) VS.junk (runMiddle c i arg2 harg2 arg3 harg3 arg4 harg4 arg5 harg5 arg6 harg6 arg7 harg7 arg8 harg8 hc0 hc1 x0 x1 x2 x3 xs).1) = k0_pay2 xs x0 x1 := by
  rw [View.read_writes_eq_canon _ _ _ (fun y => View.cover_of_tiledL (runMiddle c i arg2 harg2 arg3 harg3 arg4 harg4 arg5 harg5 arg6 harg6 arg7 harg7 arg8 harg8 hc0 hc1 x0 x1 x2 x3 xs).1 S256x8192.size (by sl_kernel_rfl) y)]
  unfold runMiddle
  dsimp only
  sl_unfold_words
  rw [View.canon_unit_zero (S := S256x8192) hz2]
  simp only [View.readAt_eq_ld, harg2.read_unread, harg3.read_unread, harg8.read_unread, View.ld_unit_zero (S := S256x128) hz2, View.ld_unit_zero (S := S128x8192) hz2, View.ld_unit_zero (S := S1x8192) hz2, View.ld_unit_zero (S := S256x2048) hz2, View.ld_unit_zero (S := S256x8192) hz2]

/-- The last step leaves in the accumulator what it held plus the step's product. -/
theorem last_acc (c : Dev nD) (i : grid0.Coords) (arg2 : Memref sig .tc .vmem S256x128 .bf16) (harg2 : arg2.IsWhole) (arg3 : Memref sig .tc .vmem S128x8192 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : ¬condFirst i) (hc1 : condLast i)
    (x0 : Vec F S256x128 .bf16) (x1 : Vec F S128x8192 .bf16) (x2 : Vec F S1x8192 .f32) (x3 : Vec F S256x2048 .f32) (xs : Vec F S256x8192 .f32) :
    VS.read (Elt F) (VS.writes (Elt F) VS.junk (runLast c i arg2 harg2 arg3 harg3 arg4 harg4 arg5 harg5 arg6 harg6 arg7 harg7 arg8 harg8 hc0 hc1 x0 x1 x2 x3 xs).2.2.1) = k0_pay2 xs x0 x1 := by
  rw [View.read_writes_eq_canon _ _ _ (fun y => View.cover_of_tiledL (runLast c i arg2 harg2 arg3 harg3 arg4 harg4 arg5 harg5 arg6 harg6 arg7 harg7 arg8 harg8 hc0 hc1 x0 x1 x2 x3 xs).2.2.1 S256x8192.size (by sl_kernel_rfl) y)]
  unfold runLast
  dsimp only
  sl_unfold_words
  rw [View.canon_unit_zero (S := S256x8192) hz2]
  simp only [View.readAt_eq_ld, harg2.read_unread, harg3.read_unread, harg8.read_unread, View.ld_unit_zero (S := S256x128) hz2, View.ld_unit_zero (S := S128x8192) hz2, View.ld_unit_zero (S := S1x8192) hz2, View.ld_unit_zero (S := S256x2048) hz2, View.ld_unit_zero (S := S256x8192) hz2]

/-- The last step leaves in the hidden-state window the new hidden state of the finished accumulator. -/
theorem last_hid (c : Dev nD) (i : grid0.Coords) (arg2 : Memref sig .tc .vmem S256x128 .bf16) (harg2 : arg2.IsWhole) (arg3 : Memref sig .tc .vmem S128x8192 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : ¬condFirst i) (hc1 : condLast i)
    (x0 : Vec F S256x128 .bf16) (x1 : Vec F S128x8192 .bf16) (x2 : Vec F S1x8192 .f32) (x3 : Vec F S256x2048 .f32) (xs : Vec F S256x8192 .f32) :
    VO4.read (Elt F) (VO4.writes (Elt F) VO4.junk (runLast c i arg2 harg2 arg3 harg3 arg4 harg4 arg5 harg5 arg6 harg6 arg7 harg7 arg8 harg8 hc0 hc1 x0 x1 x2 x3 xs).1) = k0_pay5 (k0_pay2 xs x0 x1) x2 x3 := by
  rw [View.read_writes_eq_canon _ _ _ (fun y => View.cover_of_tiledL (runLast c i arg2 harg2 arg3 harg3 arg4 harg4 arg5 harg5 arg6 harg6 arg7 harg7 arg8 harg8 hc0 hc1 x0 x1 x2 x3 xs).1 S256x2048.size (by sl_kernel_rfl) y)]
  unfold runLast
  dsimp only
  sl_unfold_words
  rw [View.canon_unit_zero (S := S256x2048) hz2]
  simp only [View.readCov_unit_zero (S := S256x8192) _ hz2, View.readAt_eq_ld, harg2.read_unread, harg3.read_unread, harg4.read_unread, harg5.read_unread, harg8.read_unread, View.ld_unit_zero (S := S256x128) hz2, View.ld_unit_zero (S := S128x8192) hz2, View.ld_unit_zero (S := S1x8192) hz2, View.ld_unit_zero (S := S256x2048) hz2, View.ld_unit_zero (S := S256x8192) hz2]

/-- The last step leaves in the cell-state window the new cell state of the finished accumulator. -/
theorem last_cell (c : Dev nD) (i : grid0.Coords) (arg2 : Memref sig .tc .vmem S256x128 .bf16) (harg2 : arg2.IsWhole) (arg3 : Memref sig .tc .vmem S128x8192 .bf16) (harg3 : arg3.IsWhole) (arg4 : Memref sig .tc .vmem S1x8192 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : ¬condFirst i) (hc1 : condLast i)
    (x0 : Vec F S256x128 .bf16) (x1 : Vec F S128x8192 .bf16) (x2 : Vec F S1x8192 .f32) (x3 : Vec F S256x2048 .f32) (xs : Vec F S256x8192 .f32) :
    VO5.read (Elt F) (VO5.writes (Elt F) VO5.junk (runLast c i arg2 harg2 arg3 harg3 arg4 harg4 arg5 harg5 arg6 harg6 arg7 harg7 arg8 harg8 hc0 hc1 x0 x1 x2 x3 xs).2.1) = k0_pay4 (k0_pay2 xs x0 x1) x2 x3 := by
  rw [View.read_writes_eq_canon _ _ _ (fun y => View.cover_of_tiledL (runLast c i arg2 harg2 arg3 harg3 arg4 harg4 arg5 harg5 arg6 harg6 arg7 harg7 arg8 harg8 hc0 hc1 x0 x1 x2 x3 xs).2.1 S256x2048.size (by sl_kernel_rfl) y)]
  unfold runLast
  dsimp only
  sl_unfold_words
  rw [View.canon_unit_zero (S := S256x2048) hz2]
  simp only [View.readCov_unit_zero (S := S256x8192) _ hz2, View.readAt_eq_ld, harg2.read_unread, harg3.read_unread, harg4.read_unread, harg5.read_unread, harg8.read_unread, View.ld_unit_zero (S := S256x128) hz2, View.ld_unit_zero (S := S128x8192) hz2, View.ld_unit_zero (S := S1x8192) hz2, View.ld_unit_zero (S := S256x2048) hz2, View.ld_unit_zero (S := S256x8192) hz2]

end Cert.KernelIdeal.Hand

end
-- ==== Proof.Spec.lean ====
/-
  The LSTM cell as one function of its operands, entry by entry, on the extended reals.

  The four gates share one matrix product. With xh the batch of inputs joined to the previous hidden states
  (4096 rows of 4096 entries), wt the four gates' weight matrices joined and transposed (4096 rows, 8192 columns:
  columns 0..2047 the input gate, 2048..4095 the forget gate, 4096..6143 the output gate, 6144..8191 the candidate)
  and b the four bias vectors joined, the pre-activation of column q in batch row r is

      gate r q = Σ_l xh(r, l) · wt(l, q) + b(q).

  The new cell state is  σ(forget) · c₁ + σ(input) · tanh(candidate), the new hidden state σ(output) · tanh(new cell),
  with σ the logistic function x ↦ 1 / (1 + e⁻ˣ).
-/
import Idealize.ShloMosaic.PureOps.Ideal
import Idealize.ShloMosaic.Lib.ValueIdx
import Idealize.ShloMosaic.Lib.IdealHost

noncomputable section

namespace Cert.Lstm

open Idealize.ShloMosaic Idealize.ShloMosaic.ValueIdx

/-- A matrix of extended reals with `a` rows and `b` columns; a vector of `a` entries. -/
abbrev Mat (a b : ℕ) : Type := (⟨2, ![a, b]⟩ : Shape).Idx → EReal
abbrev Vect (a : ℕ) : Type := (⟨1, ![a]⟩ : Shape).Idx → EReal

/-- The pre-activation of gate column `q` in batch row `r`. -/
def gate (xh : Mat 4096 4096) (wt : Mat 4096 8192) (b : Vect 8192) (r : Fin 4096) (q : Fin 8192) : EReal :=
  (∑ l : Fin 4096, xh (ix2 r l) * wt (ix2 l q)) + b (ix1 q)

/-- Column `j` of the gate whose block of 2048 columns starts at `off` (0, 2048, 4096 or 6144). -/
abbrev col (off : ℕ) (h : off + 2048 ≤ 8192) (j : Fin 2048) : Fin 8192 := ⟨off + j.val, by have := j.isLt; omega⟩

/-- The new cell state: forget gate times the old cell state plus input gate times the candidate. -/
def cellNew (xh : Mat 4096 4096) (wt : Mat 4096 8192) (b : Vect 8192) (c1 : Mat 4096 2048) : Mat 4096 2048 := fun i =>
  Ideal.logistic (gate xh wt b (i 0) (col 2048 (by norm_num) (i 1))) * c1 i
    + Ideal.logistic (gate xh wt b (i 0) (col 0 (by norm_num) (i 1))) * Ideal.tanh (gate xh wt b (i 0) (col 6144 (by norm_num) (i 1)))

/-- The new hidden state: output gate times tanh of the new cell state. -/
def hiddenNew (xh : Mat 4096 4096) (wt : Mat 4096 8192) (b : Vect 8192) (c1 : Mat 4096 2048) : Mat 4096 2048 := fun i =>
  Ideal.logistic (gate xh wt b (i 0) (col 4096 (by norm_num) (i 1))) * Ideal.tanh (cellNew xh wt b c1 i)

/-- The logistic function spelled with the constant 1 given by its binary pattern, as a quotient. -/
theorem logistic_spelled (x : EReal) :
    Ideal.div (Ideal.ofBits .f32 0x3F800000#32) (Ideal.ofBits .f32 0x3F800000#32 + Ideal.exp (-x)) = Ideal.logistic x := by
  rw [Ideal.ofBits_one_f32]; rfl

end Cert.Lstm

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.KPayload.lean ====
/-
  What the kernel body's five stored values are, entry by entry, at the ideal values.

  The accumulator block has 256 rows and 8192 columns. It is cleared to zero; each step adds to it the product of a
  256×128 block of inputs with a 128×8192 block of weights, whose entry (p, q) is Σ_l x(p, l) · w(l, q); at the end the
  bias row of 8192 entries is added to every one of the 256 rows. The four blocks of 2048 columns of the result are
  the input, forget, output and candidate pre-activations: the new cell state is logistic(forget) · c₁ +
  logistic(input) · tanh(candidate) and the new hidden state logistic(output) · tanh(new cell state), entry by entry.
  A change of shape from a shape to itself reads the same entry, a block of columns reads the entry at the block's
  offset plus the column, and every other operation acts entry by entry.
-/
import proofs.«123030_j16269336118035_1_alg».proof.Proof.Gen.KernelIdeal.Skeleton
import proofs.«123030_j16269336118035_1_alg».proof.Proof.Spec
import proofs.«123030_j16269336118035_1_alg».proof.Proof.LibDenseLayer
import Idealize.ShloMosaic.Lib.ValueIdx
import Idealize.ShloMosaic.Lib.ValueLayout
import Idealize.ShloMosaic.Lib.Pipeline.Value
import Idealize.ShloMosaic.PureOps.Ideal.Laws

noncomputable section

namespace Cert.Lstm.Pay

open Cert.KernelIdeal Cert.KernelIdeal.Gen Idealize.ShloMosaic Idealize.ShloMosaic.ValueIdx Cert.Lstm

/-- The value the accumulator is cleared to is zero at every entry. -/
theorem pay1_apply (y : S256x8192.Idx) : k0_pay1 (F := Ideal) y = 0 := by
  unfold k0_pay1
  refine (congrFun (shapeCast_self _ shapeCasts_S256x8192_S256x8192) y).trans ?_
  exact Ideal.ofBits_zero_f32

/-- One accumulation step: entry (p, q) of the accumulator plus Σ_l x(p, l) · w(l, q). -/
theorem pay2_apply (acc : Vec Ideal S256x8192 .f32) (xb : Vec Ideal S256x128 .bf16) (wb : Vec Ideal S128x8192 .bf16) (p : Fin 256) (q : Fin 8192) :
    k0_pay2 (F := Ideal) acc xb wb (ix2 p q) = acc (ix2 p q) + ∑ l : Fin 128, xb (ix2 p l) * wb (ix2 l q) := by
  unfold k0_pay2
  refine (congrFun (shapeCast_self _ shapeCasts_S256x8192_S256x8192) (ix2 p q)).trans ?_
  refine congrArg (acc (ix2 p q) + ·) ?_
  refine (DenseLayer.matmul_rows_apply dot_S256x128_S128x8192_S256x8192_1_0_0_1_n_n_wf none
    (shapeCast S256x128 xb shapeCasts_S256x128_S256x128) (shapeCast S128x8192 wb shapeCasts_S128x8192_S128x8192) p q).trans ?_
  refine Finset.sum_congr rfl fun l _ => ?_
  exact congrArg₂ (· * ·) (congrFun (shapeCast_self xb shapeCasts_S256x128_S256x128) (ix2 p l))
    (congrFun (shapeCast_self wb shapeCasts_S128x8192_S128x8192) (ix2 l q))

/-- The bias row added to every row: entry (p, q) of the accumulator plus the bias at q. -/
theorem pay3_apply (acc : Vec Ideal S256x8192 .f32) (bias : Vec Ideal S1x8192 .f32) (p : Fin 256) (q : Fin 8192) :
    k0_pay3 (F := Ideal) acc bias (ix2 p q) = acc (ix2 p q) + bias (ix2 (0 : Fin 1) q) := by
  unfold k0_pay3
  refine congrArg (acc (ix2 p q) + ·) ?_
  refine (broadcastTo_1b_ab_apply (shapeCast S1x8192 bias shapeCasts_S1x8192_S1x8192) broadcasts_S1x8192_S256x8192 p q).trans ?_
  exact congrFun (shapeCast_self bias shapeCasts_S1x8192_S1x8192) (ix2 (0 : Fin 1) q)

/-- The new cell state: logistic of the forget columns times the old cell state plus logistic of the input columns
    times tanh of the candidate columns. -/
theorem pay4_apply (acc : Vec Ideal S256x8192 .f32) (bias : Vec Ideal S1x8192 .f32) (c1 : Vec Ideal S256x2048 .f32) (p : Fin 256) (j : Fin 2048) :
    k0_pay4 (F := Ideal) acc bias c1 (ix2 p j)
      = Ideal.logistic (k0_pay3 (F := Ideal) acc bias (ix2 p (col 2048 (by norm_num) j))) * c1 (ix2 p j)
        + Ideal.logistic (k0_pay3 (F := Ideal) acc bias (ix2 p (col 0 (by norm_num) j))) * Ideal.tanh (k0_pay3 (F := Ideal) acc bias (ix2 p (col 6144 (by norm_num) j))) := by
  have e0 := extractStridedSlice_apply ![0, 0] (k0_pay3 (F := Ideal) acc bias) slices_S256x8192_o0_0_S256x2048 (ix2 p j)
    (ix2 p (col 0 (by norm_num) j)) (fun a => by
      match a with
      | ⟨0, _⟩ => exact (Nat.zero_add _).symm
      | ⟨1, _⟩ => rfl)
  have e1 := extractStridedSlice_apply ![0, 2048] (k0_pay3 (F := Ideal) acc bias) slices_S256x8192_o0_2048_S256x2048 (ix2 p j)
    (ix2 p (col 2048 (by norm_num) j)) (fun a => by
      match a with
      | ⟨0, _⟩ => exact (Nat.zero_add _).symm
      | ⟨1, _⟩ => rfl)
  have e3 := extractStridedSlice_apply ![0, 6144] (k0_pay3 (F := Ideal) acc bias) slices_S256x8192_o0_6144_S256x2048 (ix2 p j)
    (ix2 p (col 6144 (by norm_num) j)) (fun a => by
      match a with
      | ⟨0, _⟩ => exact (Nat.zero_add _).symm
      | ⟨1, _⟩ => rfl)
  unfold k0_pay4
  exact congrArg₂ (· + ·) (congrArg (Ideal.logistic · * c1 (ix2 p j)) e1)
    (congrArg₂ (fun a b => Ideal.logistic a * Ideal.tanh b) e0 e3)

/-- The new hidden state: logistic of the output columns times tanh of the new cell state. -/
theorem pay5_apply (acc : Vec Ideal S256x8192 .f32) (bias : Vec Ideal S1x8192 .f32) (c1 : Vec Ideal S256x2048 .f32) (p : Fin 256) (j : Fin 2048) :
    k0_pay5 (F := Ideal) acc bias c1 (ix2 p j)
      = Ideal.logistic (k0_pay3 (F := Ideal) acc bias (ix2 p (col 4096 (by norm_num) j))) * Ideal.tanh (k0_pay4 (F := Ideal) acc bias c1 (ix2 p j)) := by
  have e2 := extractStridedSlice_apply ![0, 4096] (k0_pay3 (F := Ideal) acc bias) slices_S256x8192_o0_4096_S256x2048 (ix2 p j)
    (ix2 p (col 4096 (by norm_num) j)) (fun a => by
      match a with
      | ⟨0, _⟩ => exact (Nat.zero_add _).symm
      | ⟨1, _⟩ => rfl)
  unfold k0_pay5
  exact congrArg (Ideal.logistic · * Ideal.tanh (k0_pay4 (F := Ideal) acc bias c1 (ix2 p j))) e2

end Cert.Lstm.Pay

end
-- ==== Proof.KArrays.lean ====
/-
  The arrays the kernel call works on, at the ideal values, and the place of a grid point's blocks in them.

  The host joins the inputs with the previous hidden states (xhK, 4096 × 4096), joins the four gates' weight matrices
  and transposes the result (wtK, 4096 rows and 8192 columns), and joins the four bias vectors (bK, 8192 entries).
  Grid point number t is step t mod 32 along the contracted axis of batch block t div 32: its input block holds rows
  256·(t div 32) … + 255 and contracted positions 128·(t mod 32) … + 127.
-/
import proofs.«123030_j16269336118035_1_alg».proof.Proof.KFrame.Kit
import proofs.«123030_j16269336118035_1_alg».proof.Proof.Spec

noncomputable section

namespace Cert.Lstm.Kern

open Cert.KernelIdeal Cert.KernelIdeal.Gen Cert.KernelIdeal.Hand
open Idealize.ShloMosaic Idealize.ShloMosaic.TcCoe Idealize.SL.Sem Idealize.ShloMosaic.ValueIdx Cert.Lstm

variable (m : (ℓ : Loc nD τ sig) → Buf (Elt Ideal) ℓ)

/-- The inputs joined with the previous hidden states. -/
def xhK (c : Dev nD) : Mat 4096 4096 :=
  concatenate S4096x4096 1 [⟨S4096x2048, m ((c.tc : Thread nD τ).loc main_arg0)⟩, ⟨S4096x2048, m ((c.tc : Thread nD τ).loc main_arg1)⟩] Gen.concatenates_S4096x2048_S4096x2048_S4096x4096_d1

/-- The four weight matrices joined along their rows, transposed. -/
def wtK (c : Dev nD) : Mat 4096 8192 :=
  transpose S4096x8192 [1, 0] (concatenate S8192x4096 0 [⟨S2048x4096, m ((c.tc : Thread nD τ).loc main_arg3)⟩, ⟨S2048x4096, m ((c.tc : Thread nD τ).loc main_arg5)⟩, ⟨S2048x4096, m ((c.tc : Thread nD τ).loc main_arg7)⟩, ⟨S2048x4096, m ((c.tc : Thread nD τ).loc main_arg9)⟩] Gen.concatenates_S2048x4096_S2048x4096_S2048x4096_S2048x4096_S8192x4096_d0) Gen.transposes_S8192x4096_S4096x8192_1_0

/-- The four bias vectors joined. -/
def bK (c : Dev nD) : Vect 8192 :=
  concatenate S8192 0 [⟨S2048, m ((c.tc : Thread nD τ).loc main_arg4)⟩, ⟨S2048, m ((c.tc : Thread nD τ).loc main_arg6)⟩, ⟨S2048, m ((c.tc : Thread nD τ).loc main_arg8)⟩, ⟨S2048, m ((c.tc : Thread nD τ).loc main_arg10)⟩] Gen.concatenates_S2048_S2048_S2048_S2048_S8192_d0

/-- The old cell state. -/
def c1K (c : Dev nD) : Mat 4096 2048 := m ((c.tc : Thread nD τ).loc main_arg2)

theorem N512 : cfg0.N = 512 := N_0

/-- Row `p` of grid point `t`'s batch block, as a row of the whole batch. -/
def rowOf (t : Fin cfg0.N) (p : Fin 256) : Fin 4096 :=
  ⟨256 * (t.val / 32) + p.val, by have := t.isLt; have := N512; have := p.isLt; omega⟩

/-- Position `l` of grid point `t`'s step along the contracted axis, as a position of the whole axis. -/
def depthOf (t : Fin cfg0.N) (l : Fin 128) : Fin 4096 :=
  ⟨128 * (t.val % 32) + l.val, by have := l.isLt; omega⟩

/-- The four operand blocks of grid point `t`, at their literal shapes. -/
abbrev blk0 (c : Dev nD) (t : Fin cfg0.N) : Vec Ideal S256x128 .bf16 := iblk m c 0 t
abbrev blk1 (c : Dev nD) (t : Fin cfg0.N) : Vec Ideal S128x8192 .bf16 := iblk m c 1 t
abbrev blk2 (c : Dev nD) (t : Fin cfg0.N) : Vec Ideal S1x8192 .f32 := iblk m c 2 t
abbrev blk3 (c : Dev nD) (t : Fin cfg0.N) : Vec Ideal S256x2048 .f32 := iblk m c 3 t

end Cert.Lstm.Kern

end
-- ==== Proof.KBlocks.lean ====
/-
  What the kernel call finds in the three arrays the host prepared, and what a grid point's operand blocks are,
  entry by entry, at the ideal values.

  Before the call the host joins the inputs with the previous hidden states and changes the float format, joins and
  transposes the four weight matrices and changes the float format, and joins the four bias vectors and lays the
  result out as one row. On extended reals a change of float format is the identity, so the call finds the joined
  input matrix xh (4096 × 4096), the joined and transposed weight matrix wt (4096 × 8192) and, as a 1 × 8192 row, the
  joined bias vector b. The old cell state is an argument no host operation writes.

  Grid point t is step t mod 32 along the contracted axis of batch block t div 32. Its input block is rows
  256·(t div 32) … + 255 and contracted positions 128·(t mod 32) … + 127 of xh; its weight block the same contracted
  positions and all 8192 columns of wt; its bias block the whole row; its old cell state block the same rows and all
  2048 columns of the old cell state.
-/
import proofs.«123030_j16269336118035_1_alg».proof.Proof.KArrays
import Idealize.ShloMosaic.Lib.Pipeline.Value
import Idealize.ShloMosaic.Lib.ValueLayout
import Idealize.ShloMosaic.Lib.StableHlo.Run

noncomputable section

namespace Cert.Lstm.Kern

open Cert.KernelIdeal Cert.KernelIdeal.Gen Cert.KernelIdeal.Hand
open Idealize.ShloMosaic Idealize.ShloMosaic.TcCoe Idealize.SL.Sem Idealize.ShloMosaic.ValueIdx Cert.Lstm

variable (m : (ℓ : Loc nD τ sig) → Buf (Elt Ideal) ℓ)

/-! ## What the call finds in the three arrays the host prepared -/

/-- The input array of the call is the inputs joined with the previous hidden states: the change of float format in
    between is the identity on extended reals. -/
theorem V_v1 (c : Dev nD) : (V m c main_v1 : S4096x4096.Idx → EReal) = xhK m c := by
  dsimp only [V, hostOps0]
  after_results
  rfl

/-- The weight array of the call is the four weight matrices joined and transposed. -/
theorem V_v4 (c : Dev nD) : (V m c main_v4 : S4096x8192.Idx → EReal) = wtK m c := by
  dsimp only [V, hostOps0]
  after_results
  rfl

/-- The bias array of the call is the joined bias vector laid out as one row: entry (u, q) is the vector's entry q. -/
theorem V_v6 (c : Dev nD) (u : Fin 1) (q : Fin 8192) : (V m c main_v6 : S1x8192.Idx → EReal) (ix2 u q) = bK m c (ix1 q) := by
  dsimp only [V, hostOps0]
  after_results
  exact shapeCast_a_1a_apply (bK m c) shapeCasts_S8192_S1x8192 u q

/-! ## Which block each grid point works on

Grid point number t has coordinates (t div 32, t mod 32): the batch block and the step along the contracted axis. -/

/-- The input window's block index is (t div 32, t mod 32). -/
theorem idx0 : ∀ t : Fin cfg0.N, win0_0.index t 0 = t.val / 32 ∧ win0_0.index t 1 = t.val % 32 :=
  (by decide +kernel : ∀ t : Fin grid0.N, _)
/-- The weight window's block index is (t mod 32, 0). -/
theorem idx1 : ∀ t : Fin cfg0.N, win0_1.index t 0 = t.val % 32 ∧ win0_1.index t 1 = 0 :=
  (by decide +kernel : ∀ t : Fin grid0.N, _)
/-- The bias window's block index is (0, 0). -/
theorem idx2 : ∀ t : Fin cfg0.N, win0_2.index t 0 = 0 ∧ win0_2.index t 1 = 0 :=
  (by decide +kernel : ∀ t : Fin grid0.N, _)
/-- The old cell state window's block index is (t div 32, 0). -/
theorem idx3 : ∀ t : Fin cfg0.N, win0_3.index t 0 = t.val / 32 ∧ win0_3.index t 1 = 0 :=
  (by decide +kernel : ∀ t : Fin grid0.N, _)

/-! ## The blocks, entry by entry

A block's entry sits in its array at block index × block size + the coordinate inside the block, on each axis. -/

/-- Entry (p, l) of the input block is xh at row 256·(t div 32) + p and contracted position 128·(t mod 32) + l. -/
theorem blk0_apply (c : Dev nD) (t : Fin cfg0.N) (p : Fin 256) (l : Fin 128) :
    blk0 m c t (ix2 p l) = xhK m c (ix2 (rowOf t p) (depthOf t l)) := by
  show iblk m c 0 t (ix2 p l) = _
  unfold iblk
  rw [View.read_apply]
  show (V m c main_v1 : S4096x4096.Idx → EReal) _ = _
  rw [V_v1]
  congr 1
  funext a
  apply Fin.ext
  match a with
  | ⟨0, _⟩ => show win0_0.index t 0 * 256 + 1 * p.val = 256 * (t.val / 32) + p.val; rw [(idx0 t).1]; omega
  | ⟨1, _⟩ => show win0_0.index t 1 * 128 + 1 * l.val = 128 * (t.val % 32) + l.val; rw [(idx0 t).2]; omega

/-- Entry (l, q) of the weight block is wt at contracted position 128·(t mod 32) + l and column q. -/
theorem blk1_apply (c : Dev nD) (t : Fin cfg0.N) (l : Fin 128) (q : Fin 8192) :
    blk1 m c t (ix2 l q) = wtK m c (ix2 (depthOf t l) q) := by
  show iblk m c 1 t (ix2 l q) = _
  unfold iblk
  rw [View.read_apply]
  show (V m c main_v4 : S4096x8192.Idx → EReal) _ = _
  rw [V_v4]
  congr 1
  funext a
  apply Fin.ext
  match a with
  | ⟨0, _⟩ => show win0_1.index t 0 * 128 + 1 * l.val = 128 * (t.val % 32) + l.val; rw [(idx1 t).1]; omega
  | ⟨1, _⟩ => show win0_1.index t 1 * 8192 + 1 * q.val = q.val; rw [(idx1 t).2]; omega

/-- Entry (u, q) of the bias block is the joined bias vector's entry q. -/
theorem blk2_apply (c : Dev nD) (t : Fin cfg0.N) (u : Fin 1) (q : Fin 8192) :
    blk2 m c t (ix2 u q) = bK m c (ix1 q) := by
  show iblk m c 2 t (ix2 u q) = _
  unfold iblk
  rw [View.read_apply]
  show (V m c main_v6 : S1x8192.Idx → EReal) _ = _
  refine (congrArg (V m c main_v6 : S1x8192.Idx → EReal) (?_ : _ = ix2 (0 : Fin 1) q)).trans (V_v6 m c 0 q)
  funext a
  apply Fin.ext
  match a with
  | ⟨0, _⟩ => show win0_2.index t 0 * 1 + 1 * u.val = 0; rw [(idx2 t).1]; omega
  | ⟨1, _⟩ => show win0_2.index t 1 * 8192 + 1 * q.val = q.val; rw [(idx2 t).2]; omega

/-- Entry (p, j) of the old cell state block is the old cell state at row 256·(t div 32) + p and column j. -/
theorem blk3_apply (c : Dev nD) (t : Fin cfg0.N) (p : Fin 256) (j : Fin 2048) :
    blk3 m c t (ix2 p j) = c1K m c (ix2 (rowOf t p) j) := by
  show iblk m c 3 t (ix2 p j) = _
  unfold iblk c1K
  rw [View.read_apply]
  show (V m c main_arg2 : S4096x2048.Idx → EReal) _ = _
  rw [V_main_arg2]
  congr 1
  funext a
  apply Fin.ext
  match a with
  | ⟨0, _⟩ => show win0_3.index t 0 * 256 + 1 * p.val = 256 * (t.val / 32) + p.val; rw [(idx3 t).1]; omega
  | ⟨1, _⟩ => show win0_3.index t 1 * 2048 + 1 * j.val = j.val; rw [(idx3 t).2]; omega

end Cert.Lstm.Kern

end
-- ==== Proof.LibBlockSums.lean ====
/-
  Sums over a line of entries cut into equal blocks.

  A kernel that accumulates over a grid axis walks a line of entries block by block: at block t it adds up the B entries
  B·t, …, B·t + B − 1, and it carries the total across the T blocks. Over a commutative monoid the order and the grouping of a finite sum do not
  matter, so the T block sums together are the one sum over the first T·B entries. When the line of entries was padded
  past its first N entries with entries that contribute zero, the padding drops out of the sum.
-/
import Mathlib.Algebra.BigOperators.Group.Finset.Basic
import Mathlib.Algebra.BigOperators.Fin
import Mathlib.Data.Fintype.BigOperators

namespace Idealize.ShloMosaic.BlockSums

open Finset

variable {M : Type*} [AddCommMonoid M]

/-- T consecutive blocks of B entries each, summed block by block, are the first T·B entries summed in a row. -/
theorem sum_blocks (f : ℕ → M) (B : ℕ) : ∀ T : ℕ,
    ∑ t ∈ range T, ∑ j : Fin B, f (B * t + j.val) = ∑ n ∈ range (T * B), f n
  | 0 => by simp
  | T + 1 => by
    rw [sum_range_succ, sum_blocks f B T, Nat.succ_mul, sum_range_add,
      Fin.sum_univ_eq_sum_range (fun j => f (B * T + j)) B, Nat.mul_comm B T]

/-- Entries from N on that are all zero do not count. -/
theorem sum_range_pad (f : ℕ → M) (N P : ℕ) (h : ∀ n, N ≤ n → f n = 0) :
    ∑ n ∈ range (N + P), f n = ∑ n ∈ range N, f n := by
  rw [sum_range_add, sum_eq_zero (fun x _ => h _ (Nat.le_add_right _ _)), add_zero]

/-- Both together: T blocks of B entries covering N entries and P entries of padding that contribute zero sum to the
    N entries' sum, written over `Fin N`. -/
theorem sum_blocks_pad (f : ℕ → M) (B T N P : ℕ) (hTB : T * B = N + P) (h : ∀ n, N ≤ n → f n = 0) :
    ∑ t ∈ range T, ∑ j : Fin B, f (B * t + j.val) = ∑ n : Fin N, f n.val := by
  rw [sum_blocks f B T, hTB, sum_range_pad f N P h, Fin.sum_univ_eq_sum_range]

end Idealize.ShloMosaic.BlockSums
-- ==== Proof.KAccum.lean ====
/-
  The accumulator, step by step, at the ideal values; and the two result windows at a last step.

  Within the run of 32 steps that belongs to one block of 256 batch rows, after step k the accumulator's entry (p, q)
  is the sum of the products x(r, L) · w(L, q) over the first 128·(k + 1) positions L of the contracted axis, r the
  batch row of p: the first step starts from zero, each later step adds its 128 products to what the step before
  left. Addition on the extended reals is associative and commutative, so after the last step the 32 block sums are
  the one sum over all 4096 positions: the accumulator plus the bias is the gates' pre-activation, and what the last
  step stores into the result windows is the specification's new hidden state and new cell state of that block of rows.
-/
import proofs.«123030_j16269336118035_1_alg».proof.Proof.KPieces
import proofs.«123030_j16269336118035_1_alg».proof.Proof.KPayload
import proofs.«123030_j16269336118035_1_alg».proof.Proof.KBlocks
import proofs.«123030_j16269336118035_1_alg».proof.Proof.LibBlockSums

set_option maxRecDepth 16384

noncomputable section

namespace Cert.Lstm.Kern

open Cert.KernelIdeal Cert.KernelIdeal.Gen Cert.KernelIdeal.Hand
open Idealize.ShloMosaic Idealize.ShloMosaic.TcCoe Idealize.SL.Sem Idealize.ShloMosaic.ValueIdx Cert.Lstm Cert.Lstm.Pay

variable (m : (ℓ : Loc nD τ sig) → Buf (Elt Ideal) ℓ)

/-- Product number `L` of the pre-activation of column `q` in batch row `r` (zero past the end of the axis). -/
def term (c : Dev nD) (r : Fin 4096) (q : Fin 8192) (L : ℕ) : EReal :=
  if h : L < 4096 then xhK m c (ix2 r ⟨L, h⟩) * wtK m c (ix2 ⟨L, h⟩ q) else 0

/-- The products a grid point adds are the 128 terms of its step. -/
theorem step_sum (c : Dev nD) (t : Fin cfg0.N) (p : Fin 256) (q : Fin 8192) :
    ∑ l : Fin 128, blk0 m c t (ix2 p l) * blk1 m c t (ix2 l q)
      = ∑ l : Fin 128, term m c (rowOf t p) q (128 * (t.val % 32) + l.val) := by
  refine Finset.sum_congr rfl fun l _ => ?_
  rw [blk0_apply, blk1_apply]
  unfold term
  rw [dif_pos (show 128 * (t.val % 32) + l.val < 4096 from (depthOf t l).isLt)]
  rfl

/-- The accumulator after a first step. -/
theorem acc_first (c : Dev nD) (t : Fin cfg0.N) (h0 : t.val % 32 = 0) (h1 : ¬t.val % 32 = 31) :
    (stateAt m c t.val t.isLt).2.2 = k0_pay2 (k0_pay1 (F := Ideal)) (blk0 m c t) (blk1 m c t) := by
  rw [stateAt_first m c t h0 h1]; dsimp only
  exact first_acc (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) accM (Memref.isWhole_whole _) ((hcondFirst t).mpr h0) (fun h => h1 ((hcondLast t).mp h)) (iblk m c 0 t) (iblk m c 1 t) (iblk m c 2 t) (iblk m c 3 t)

/-- The accumulator after a middle step, over what the point before left. -/
theorem acc_middle (c : Dev nD) (t : Fin cfg0.N) (h0 : ¬t.val % 32 = 0) (h1 : ¬t.val % 32 = 31) :
    (stateAt m c t.val t.isLt).2.2
      = k0_pay2 (stateAt m c (t.val - 1) (Nat.lt_of_le_of_lt (Nat.sub_le _ _) t.isLt)).2.2 (blk0 m c t) (blk1 m c t) := by
  rw [stateAt_middle m c t h0 h1]; dsimp only
  exact middle_acc (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) accM (Memref.isWhole_whole _) (fun h => h0 ((hcondFirst t).mp h)) (fun h => h1 ((hcondLast t).mp h)) (iblk m c 0 t) (iblk m c 1 t) (iblk m c 2 t) (iblk m c 3 t)
    (stateAt m c (t.val - 1) (Nat.lt_of_le_of_lt (Nat.sub_le _ _) t.isLt)).2.2

/-- The accumulator after a last step, over what the point before left. -/
theorem acc_last (c : Dev nD) (t : Fin cfg0.N) (h0 : ¬t.val % 32 = 0) (h1 : t.val % 32 = 31) :
    (stateAt m c t.val t.isLt).2.2
      = k0_pay2 (stateAt m c (t.val - 1) (Nat.lt_of_le_of_lt (Nat.sub_le _ _) t.isLt)).2.2 (blk0 m c t) (blk1 m c t) := by
  rw [stateAt_last m c t h0 h1]; dsimp only
  exact last_acc (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) accM (Memref.isWhole_whole _) (fun h => h0 ((hcondFirst t).mp h)) ((hcondLast t).mpr h1) (iblk m c 0 t) (iblk m c 1 t) (iblk m c 2 t) (iblk m c 3 t)
    (stateAt m c (t.val - 1) (Nat.lt_of_le_of_lt (Nat.sub_le _ _) t.isLt)).2.2

/-- After any step but a first one the accumulator is the step's product added to what the point before left. -/
theorem acc_later (c : Dev nD) (t : Fin cfg0.N) (h0 : ¬t.val % 32 = 0) :
    (stateAt m c t.val t.isLt).2.2
      = k0_pay2 (stateAt m c (t.val - 1) (Nat.lt_of_le_of_lt (Nat.sub_le _ _) t.isLt)).2.2 (blk0 m c t) (blk1 m c t) := by
  by_cases h1 : t.val % 32 = 31
  · exact acc_last m c t h0 h1
  · exact acc_middle m c t h0 h1

/-- THE RUNNING SUM. After grid point `n`, entry (p, q) of the accumulator is the sum of the terms of the steps
    0 … n mod 32 of the point's batch block. -/
theorem acc_apply (c : Dev nD) : ∀ (n : ℕ) (hn : n < cfg0.N) (p : Fin 256) (q : Fin 8192),
    (stateAt m c n hn).2.2 (ix2 p q)
      = ∑ s ∈ Finset.range (n % 32 + 1), ∑ l : Fin 128, term m c (rowOf ⟨n, hn⟩ p) q (128 * s + l.val)
  | 0, hn, p, q => by
    have e := acc_first m c ⟨0, hn⟩ (Nat.zero_mod _) (show ¬(0 : ℕ) % 32 = 31 by decide)
    rw [show (stateAt m c 0 hn).2.2 = _ from e, pay2_apply, pay1_apply, zero_add, step_sum]
    simp only [Nat.zero_mod, zero_add, Finset.sum_range_one]
  | n + 1, hn, p, q => by
    by_cases h0 : (n + 1) % 32 = 0
    · have e := acc_first m c ⟨n + 1, hn⟩ h0 (fun h => by have h' : (n + 1) % 32 = 31 := h; omega)
      rw [show (stateAt m c (n + 1) hn).2.2 = _ from e, pay2_apply, pay1_apply, zero_add, step_sum]
      simp only [h0, zero_add, Finset.sum_range_one]
    · have e := acc_later m c ⟨n + 1, hn⟩ h0
      rw [show (stateAt m c (n + 1) hn).2.2 = _ from e, pay2_apply, step_sum]
      have ih := acc_apply c n (Nat.lt_of_succ_lt hn) p q
      have hrow : rowOf ⟨n, Nat.lt_of_succ_lt hn⟩ p = rowOf ⟨n + 1, hn⟩ p := by
        apply Fin.ext; show 256 * (n / 32) + p.val = 256 * ((n + 1) / 32) + p.val
        have : (n + 1) / 32 = n / 32 := by omega
        rw [this]
      have hk : (n + 1) % 32 = n % 32 + 1 := by omega
      rw [show (stateAt m c ((⟨n + 1, hn⟩ : Fin cfg0.N).val - 1) _).2.2 (ix2 p q) = (stateAt m c n (Nat.lt_of_succ_lt hn)).2.2 (ix2 p q) from rfl,
        ih, hrow, Finset.sum_range_succ (n := (n + 1) % 32)]
      show _ + _ = _ + _
      rw [hk]

/-- The 32 block sums of a whole run are the one sum over the 4096 positions of the contracted axis. -/
theorem total_sum (c : Dev nD) (r : Fin 4096) (q : Fin 8192) :
    ∑ s ∈ Finset.range 32, ∑ l : Fin 128, term m c r q (128 * s + l.val)
      = ∑ L : Fin 4096, xhK m c (ix2 r L) * wtK m c (ix2 L q) := by
  rw [Idealize.ShloMosaic.BlockSums.sum_blocks (term m c r q) 128 32, show 32 * 128 = 4096 from rfl,
    ← Fin.sum_univ_eq_sum_range (term m c r q) 4096]
  refine Finset.sum_congr rfl fun L _ => ?_
  unfold term
  rw [dif_pos L.isLt]

/-- At a last step, the accumulator plus the bias row is the gates' pre-activation. -/
theorem gate_last (c : Dev nD) (t : Fin cfg0.N) (h1 : t.val % 32 = 31) (p : Fin 256) (q : Fin 8192) :
    k0_pay3 (F := Ideal) (stateAt m c t.val t.isLt).2.2 (blk2 m c t) (ix2 p q)
      = gate (xhK m c) (wtK m c) (bK m c) (rowOf t p) q := by
  rw [pay3_apply, acc_apply m c t.val t.isLt p q, h1, total_sum, blk2_apply]
  rfl

/-- What the last step of a run stores into the cell-state window. -/
theorem cell_last (c : Dev nD) (t : Fin cfg0.N) (h0 : ¬t.val % 32 = 0) (h1 : t.val % 32 = 31) (p : Fin 256) (j : Fin 2048) :
    (stateAt m c t.val t.isLt).2.1 (ix2 p j) = cellNew (xhK m c) (wtK m c) (bK m c) (c1K m c) (ix2 (rowOf t p) j) := by
  have ea := acc_last m c t h0 h1
  have e : (stateAt m c t.val t.isLt).2.1 = k0_pay4 (F := Ideal) (stateAt m c t.val t.isLt).2.2 (blk2 m c t) (blk3 m c t) := by
    rw [ea, stateAt_last m c t h0 h1]; dsimp only
    exact last_cell (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) accM (Memref.isWhole_whole _) (fun h => h0 ((hcondFirst t).mp h)) ((hcondLast t).mpr h1) (iblk m c 0 t) (iblk m c 1 t) (iblk m c 2 t) (iblk m c 3 t)
      (stateAt m c (t.val - 1) (Nat.lt_of_le_of_lt (Nat.sub_le _ _) t.isLt)).2.2
  rw [e, pay4_apply, gate_last m c t h1, gate_last m c t h1, gate_last m c t h1, blk3_apply]
  rfl

/-- What the last step of a run stores into the hidden-state window. -/
theorem hid_last (c : Dev nD) (t : Fin cfg0.N) (h0 : ¬t.val % 32 = 0) (h1 : t.val % 32 = 31) (p : Fin 256) (j : Fin 2048) :
    (stateAt m c t.val t.isLt).1 (ix2 p j) = hiddenNew (xhK m c) (wtK m c) (bK m c) (c1K m c) (ix2 (rowOf t p) j) := by
  have ea := acc_last m c t h0 h1
  have e : (stateAt m c t.val t.isLt).1 = k0_pay5 (F := Ideal) (stateAt m c t.val t.isLt).2.2 (blk2 m c t) (blk3 m c t) := by
    rw [ea, stateAt_last m c t h0 h1]; dsimp only
    exact last_hid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) accM (Memref.isWhole_whole _) (fun h => h0 ((hcondFirst t).mp h)) ((hcondLast t).mpr h1) (iblk m c 0 t) (iblk m c 1 t) (iblk m c 2 t) (iblk m c 3 t)
      (stateAt m c (t.val - 1) (Nat.lt_of_le_of_lt (Nat.sub_le _ _) t.isLt)).2.2
  have ec : k0_pay4 (F := Ideal) (stateAt m c t.val t.isLt).2.2 (blk2 m c t) (blk3 m c t) (ix2 p j)
      = cellNew (xhK m c) (wtK m c) (bK m c) (c1K m c) (ix2 (rowOf t p) j) := by
    rw [pay4_apply, gate_last m c t h1, gate_last m c t h1, gate_last m c t h1, blk3_apply]
    rfl
  rw [e, pay5_apply, gate_last m c t h1, ec]
  rfl

end Cert.Lstm.Kern

end
-- ==== Proof.KFinal.lean ====
/-
  The two result arrays after the kernel call, at the ideal values.

  The last step of each run of 32 grid points writes its 256-row block of the new hidden state and of the new cell
  state back to the result arrays; the 16 runs' blocks tile the 4096 rows, so after the call each result array is the
  specification's function of the joined operands, entry by entry.
-/
import proofs.«123030_j16269336118035_1_alg».proof.Proof.KAccum

set_option maxRecDepth 16384

noncomputable section

namespace Cert.Lstm.Kern

open Cert.KernelIdeal Cert.KernelIdeal.Gen Cert.KernelIdeal.Hand
open Idealize.ShloMosaic Idealize.ShloMosaic.TcCoe Idealize.SL.Sem Idealize.ShloMosaic.ValueIdx Cert.Lstm
open Idealize.ShloMosaic.Pipeline (Dat)

variable (m : (ℓ : Loc nD τ sig) → Buf (Elt Ideal) ℓ) (ρ : Dev nD → PrngReg)

/-- The new hidden state and the new cell state of the whole batch, from the operands as the host joined them. -/
def Hfin (c : Dev nD) : Buf (Elt Ideal) ((c.tc : Thread nD τ).loc main_v7_0) := hiddenNew (xhK m c) (wtK m c) (bK m c) (c1K m c)
def Cfin (c : Dev nD) : Buf (Elt Ideal) ((c.tc : Thread nD τ).loc main_v7_1) := cellNew (xhK m c) (wtK m c) (bK m c) (c1K m c)

/-- Where result window 4's block of grid point `t` lies in its array. -/
theorem idx4 : ∀ t : Fin cfg0.N, win0_4.index t (0 : Fin 2) = t.val / 32 ∧ win0_4.index t (1 : Fin 2) = 0 :=
  (by decide +kernel : ∀ t : Fin grid0.N, win0_4.index t (0 : Fin 2) = t.val / 32 ∧ win0_4.index t (1 : Fin 2) = 0)

/-- What a last step writes back is its block of the new hidden state. -/
theorem flushed4_eq (c : Dev nD) (t : Fin cfg0.N) (hf : (cfg0.win 4).flush t = true) :
    (dats m 0 c).flushed 4 t = ((cfg0.win 4).blk t).view.read (Elt Ideal) (Hfin m c) := by
  have h1 : t.val % 32 = 31 := (flush0_4 t).mp hf
  have h0 : ¬t.val % 32 = 0 := by omega
  show (cfg0.win 4).cut (grid0.coords t) ((dats m 0 c).after 4 t) = _
  rw [after0_4]
  refine funext fun (y : S256x2048.Idx) => ?_
  obtain ⟨p, j, rfl⟩ : ∃ (p : Fin 256) (j : Fin 2048), y = ix2 p j := ⟨y 0, y 1, eq_ix2 y⟩
  show (stateAt m c t.val t.isLt).1 (ix2 p j) = Hfin m c (((cfg0.win 4).blk t).view.emb (ix2 p j))
  rw [hid_last m c t h0 h1 p j]
  refine congrArg (Hfin m c) (funext fun a => Fin.ext ?_)
  match a with
  | ⟨0, _⟩ => show 256 * (t.val / 32) + p.val = win0_4.index t (0 : Fin 2) * 256 + 1 * p.val; rw [(idx4 t).1]; omega
  | ⟨1, _⟩ => show j.val = win0_4.index t (1 : Fin 2) * 2048 + 1 * j.val; rw [(idx4 t).2]; omega

/-- An index of the result array lies in grid point `t`'s block iff each coordinate lies in the block's range. -/
theorem mem_blk4 (t : Fin cfg0.N) (i : S4096x2048.Idx) :
    i ∈ ((cfg0.win 4).blk t).view.set ↔ ∀ a : Fin 2, win0_4.index t a * S256x2048.size a ≤ (i a).val ∧ (i a).val < win0_4.index t a * S256x2048.size a + S256x2048.size a := by
  show i ∈ ((View.whole main_v7_0).slice (win0_4.rect t)).set ↔ _
  rw [View.set_slice_whole, Rect.mem_set_unit]
  exact Iff.rfl

/-- Every entry of the result array is written back by the last step of its block of 256 rows. -/
theorem cover4 (i : S4096x2048.Idx) : ∃ t : Fin cfg0.N, (cfg0.win 4).flush t = true ∧ i ∈ ((cfg0.win 4).blk t).view.set := by
  have hi0 : (i 0).val < 4096 := (i 0).isLt
  have hi1 : (i 1).val < 2048 := (i 1).isLt
  have hN := N512
  refine ⟨⟨32 * ((i 0).val / 256) + 31, by omega⟩, (flush0_4 _).mpr (by show (32 * ((i 0).val / 256) + 31) % 32 = 31; omega), ?_⟩
  rw [mem_blk4]
  intro a
  match a with
  | ⟨0, _⟩ =>
    show win0_4.index ⟨32 * ((i 0).val / 256) + 31, _⟩ (0 : Fin 2) * 256 ≤ (i 0).val ∧ (i 0).val < win0_4.index ⟨32 * ((i 0).val / 256) + 31, _⟩ (0 : Fin 2) * 256 + 256
    rw [(idx4 _).1]
    show (32 * ((i 0).val / 256) + 31) / 32 * 256 ≤ (i 0).val ∧ (i 0).val < (32 * ((i 0).val / 256) + 31) / 32 * 256 + 256
    omega
  | ⟨1, _⟩ =>
    show win0_4.index ⟨32 * ((i 0).val / 256) + 31, _⟩ (1 : Fin 2) * 2048 ≤ (i 1).val ∧ (i 1).val < win0_4.index ⟨32 * ((i 0).val / 256) + 31, _⟩ (1 : Fin 2) * 2048 + 2048
    rw [(idx4 _).2]
    omega

/-- After the run the result array holds the new hidden state. -/
theorem final4 (c : Dev nD) : (dats m 0 c).arrAt 4 cfg0.N = Hfin m c :=
  (dats m 0 c).arrAt_eq_of_cover 4 (Hfin m c) (flushed4_eq m c) (cover4)

/-- Where result window 5's block of grid point `t` lies in its array. -/
theorem idx5 : ∀ t : Fin cfg0.N, win0_5.index t (0 : Fin 2) = t.val / 32 ∧ win0_5.index t (1 : Fin 2) = 0 :=
  (by decide +kernel : ∀ t : Fin grid0.N, win0_5.index t (0 : Fin 2) = t.val / 32 ∧ win0_5.index t (1 : Fin 2) = 0)

/-- What a last step writes back is its block of the new cell state. -/
theorem flushed5_eq (c : Dev nD) (t : Fin cfg0.N) (hf : (cfg0.win 5).flush t = true) :
    (dats m 0 c).flushed 5 t = ((cfg0.win 5).blk t).view.read (Elt Ideal) (Cfin m c) := by
  have h1 : t.val % 32 = 31 := (flush0_5 t).mp hf
  have h0 : ¬t.val % 32 = 0 := by omega
  show (cfg0.win 5).cut (grid0.coords t) ((dats m 0 c).after 5 t) = _
  rw [after0_5]
  refine funext fun (y : S256x2048.Idx) => ?_
  obtain ⟨p, j, rfl⟩ : ∃ (p : Fin 256) (j : Fin 2048), y = ix2 p j := ⟨y 0, y 1, eq_ix2 y⟩
  show (stateAt m c t.val t.isLt).2.1 (ix2 p j) = Cfin m c (((cfg0.win 5).blk t).view.emb (ix2 p j))
  rw [cell_last m c t h0 h1 p j]
  refine congrArg (Cfin m c) (funext fun a => Fin.ext ?_)
  match a with
  | ⟨0, _⟩ => show 256 * (t.val / 32) + p.val = win0_5.index t (0 : Fin 2) * 256 + 1 * p.val; rw [(idx5 t).1]; omega
  | ⟨1, _⟩ => show j.val = win0_5.index t (1 : Fin 2) * 2048 + 1 * j.val; rw [(idx5 t).2]; omega

/-- An index of the result array lies in grid point `t`'s block iff each coordinate lies in the block's range. -/
theorem mem_blk5 (t : Fin cfg0.N) (i : S4096x2048.Idx) :
    i ∈ ((cfg0.win 5).blk t).view.set ↔ ∀ a : Fin 2, win0_5.index t a * S256x2048.size a ≤ (i a).val ∧ (i a).val < win0_5.index t a * S256x2048.size a + S256x2048.size a := by
  show i ∈ ((View.whole main_v7_1).slice (win0_5.rect t)).set ↔ _
  rw [View.set_slice_whole, Rect.mem_set_unit]
  exact Iff.rfl

/-- Every entry of the result array is written back by the last step of its block of 256 rows. -/
theorem cover5 (i : S4096x2048.Idx) : ∃ t : Fin cfg0.N, (cfg0.win 5).flush t = true ∧ i ∈ ((cfg0.win 5).blk t).view.set := by
  have hi0 : (i 0).val < 4096 := (i 0).isLt
  have hi1 : (i 1).val < 2048 := (i 1).isLt
  have hN := N512
  refine ⟨⟨32 * ((i 0).val / 256) + 31, by omega⟩, (flush0_5 _).mpr (by show (32 * ((i 0).val / 256) + 31) % 32 = 31; omega), ?_⟩
  rw [mem_blk5]
  intro a
  match a with
  | ⟨0, _⟩ =>
    show win0_5.index ⟨32 * ((i 0).val / 256) + 31, _⟩ (0 : Fin 2) * 256 ≤ (i 0).val ∧ (i 0).val < win0_5.index ⟨32 * ((i 0).val / 256) + 31, _⟩ (0 : Fin 2) * 256 + 256
    rw [(idx5 _).1]
    show (32 * ((i 0).val / 256) + 31) / 32 * 256 ≤ (i 0).val ∧ (i 0).val < (32 * ((i 0).val / 256) + 31) / 32 * 256 + 256
    omega
  | ⟨1, _⟩ =>
    show win0_5.index ⟨32 * ((i 0).val / 256) + 31, _⟩ (1 : Fin 2) * 2048 ≤ (i 1).val ∧ (i 1).val < win0_5.index ⟨32 * ((i 0).val / 256) + 31, _⟩ (1 : Fin 2) * 2048 + 2048
    rw [(idx5 _).2]
    omega

/-- After the run the result array holds the new cell state. -/
theorem final5 (c : Dev nD) : (dats m 0 c).arrAt 5 cfg0.N = Cfin m c :=
  (dats m 0 c).arrAt_eq_of_cover 5 (Cfin m c) (flushed5_eq m c) (cover5)

/-- The program's run at the ideal values: it ends with the first result at the new hidden state, the second at the
    new cell state, and every argument unchanged. -/
theorem run : θ_run defs (onTc (τ := τ) (main (F := Ideal))) ⟨m, fun _ => 0, ρ⟩ (fun r => ∀ c : Dev nD,
      r.2.mem ((c.tc : Thread nD τ).loc main_v7_0) = Hfin m c
      ∧ r.2.mem ((c.tc : Thread nD τ).loc main_v7_1) = Cfin m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 4).trans (final4 m c), ((h c).1 5).trans (final5 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) (run_main m ρ)

end Cert.Lstm.Kern

end
-- ==== Proof.RefSpec.lean ====
/-
  The reference program computes the specification.

  The reference joins the inputs to the previous hidden states into one matrix xh (4096 rows of 4096 entries), joins
  the four gates' weight matrices and transposes the result into wt (4096 rows, 8192 columns), joins the four bias
  vectors into b, and forms z = xh · wt + b, the bias row repeated down the 4096 rows. Entry (r, q) of z is therefore
  Σ_l xh(r, l) · wt(l, q) + b(q): the pre-activation of gate column q in batch row r.

  The four blocks of 2048 columns of z are the input, forget, output and candidate pre-activations. The first three go
  through x ↦ 1 / (1 + e⁻ˣ), written out as a quotient with the constant 1 given by its binary pattern, which is the
  logistic function; the fourth goes through tanh. The new cell state is forget · c₁ + input · candidate and the new
  hidden state is output · tanh(new cell state), entry by entry. These are exactly the specification's two functions of
  the joined operands, which stay opaque throughout: only the shape of the sums and of the gates is used.
-/
import proofs.«123030_j16269336118035_1_alg».proof.Proof.Gen.ReferenceIdeal.Read
import proofs.«123030_j16269336118035_1_alg».proof.Proof.Spec
import proofs.«123030_j16269336118035_1_alg».proof.Proof.LibDenseLayer
import Idealize.ShloMosaic.Lib.ValueIdx
import Idealize.ShloMosaic.PureOps.Ideal.Laws

noncomputable section

namespace Cert.Lstm.Ref

open Idealize.ShloMosaic Idealize.ShloMosaic.ValueIdx

/-- Entry (r, q) of the product plus the repeated bias row is the pre-activation of gate column q in batch row r:
    the product's entry is the sum over l of xh(r, l) · wt(l, q), and the bias row, repeated down the rows, reads b(q). -/
theorem ref_gate (x0 x1 : (⟨Cert.ReferenceIdeal.S4096x2048, .f32⟩ : BufTy).Contents (Elt Ideal)) (x3 : (⟨Cert.ReferenceIdeal.S2048x4096, .f32⟩ : BufTy).Contents (Elt Ideal)) (x4 : (⟨Cert.ReferenceIdeal.S2048, .f32⟩ : BufTy).Contents (Elt Ideal)) (x5 : (⟨Cert.ReferenceIdeal.S2048x4096, .f32⟩ : BufTy).Contents (Elt Ideal)) (x6 : (⟨Cert.ReferenceIdeal.S2048, .f32⟩ : BufTy).Contents (Elt Ideal)) (x7 : (⟨Cert.ReferenceIdeal.S2048x4096, .f32⟩ : BufTy).Contents (Elt Ideal)) (x8 : (⟨Cert.ReferenceIdeal.S2048, .f32⟩ : BufTy).Contents (Elt Ideal)) (x9 : (⟨Cert.ReferenceIdeal.S2048x4096, .f32⟩ : BufTy).Contents (Elt Ideal)) (x10 : (⟨Cert.ReferenceIdeal.S2048, .f32⟩ : BufTy).Contents (Elt Ideal)) (r : Fin 4096) (q : Fin 8192) :
    Cert.ReferenceIdeal.Read.val_main_v7 (F := Ideal) x0 x1 x3 x4 x5 x6 x7 x8 x9 x10 (ix2 r q)
      = Cert.Lstm.gate (Cert.ReferenceIdeal.Read.val_main_v0 (F := Ideal) x0 x1) (Cert.ReferenceIdeal.Read.val_main_v3 (F := Ideal) x3 x5 x7 x9) (Cert.ReferenceIdeal.Read.val_main_v2 (F := Ideal) x4 x6 x8 x10) r q := by
  have hl : ∀ k : Fin 4096, Cert.ReferenceIdeal.Read.lidx_main_v4 (ix2 r q) k = ix2 r k := fun k => funext fun a => Fin.ext (by
    match a with
    | ⟨0, _⟩ => rfl
    | ⟨1, _⟩ => rfl)
  have hr : ∀ k : Fin 4096, Cert.ReferenceIdeal.Read.ridx_main_v4 (ix2 r q) k = ix2 k q := fun k => funext fun a => Fin.ext (by
    match a with
    | ⟨0, _⟩ => rfl
    | ⟨1, _⟩ => rfl)
  have hb : Cert.ReferenceIdeal.Read.idx_main_v5 (Cert.ReferenceIdeal.Read.idx_main_v6 (ix2 r q)) = ix1 q := funext fun a => Fin.ext (by
    match a with
    | ⟨0, _⟩ => rfl)
  rw [Cert.ReferenceIdeal.Read.val_main_v7_apply, Cert.ReferenceIdeal.Read.val_main_v4_apply, Cert.ReferenceIdeal.Read.val_main_v6_apply, Cert.ReferenceIdeal.Read.val_main_v5_apply, hb, Ideal.addf_def]
  unfold Cert.Lstm.gate
  refine congrArg (· + _) (Finset.sum_congr rfl fun k _ => ?_)
  rw [hl k, hr k]

/-- Columns 0..2047 of z: the input gate's pre-activation. -/
theorem ref_pre_input (x0 x1 : (⟨Cert.ReferenceIdeal.S4096x2048, .f32⟩ : BufTy).Contents (Elt Ideal)) (x3 : (⟨Cert.ReferenceIdeal.S2048x4096, .f32⟩ : BufTy).Contents (Elt Ideal)) (x4 : (⟨Cert.ReferenceIdeal.S2048, .f32⟩ : BufTy).Contents (Elt Ideal)) (x5 : (⟨Cert.ReferenceIdeal.S2048x4096, .f32⟩ : BufTy).Contents (Elt Ideal)) (x6 : (⟨Cert.ReferenceIdeal.S2048, .f32⟩ : BufTy).Contents (Elt Ideal)) (x7 : (⟨Cert.ReferenceIdeal.S2048x4096, .f32⟩ : BufTy).Contents (Elt Ideal)) (x8 : (⟨Cert.ReferenceIdeal.S2048, .f32⟩ : BufTy).Contents (Elt Ideal)) (x9 : (⟨Cert.ReferenceIdeal.S2048x4096, .f32⟩ : BufTy).Contents (Elt Ideal)) (x10 : (⟨Cert.ReferenceIdeal.S2048, .f32⟩ : BufTy).Contents (Elt Ideal)) (r : Fin 4096) (j : Fin 2048) :
    Cert.ReferenceIdeal.Read.val_main_v8 (F := Ideal) x0 x1 x3 x4 x5 x6 x7 x8 x9 x10 (ix2 r j)
      = Cert.Lstm.gate (Cert.ReferenceIdeal.Read.val_main_v0 (F := Ideal) x0 x1) (Cert.ReferenceIdeal.Read.val_main_v3 (F := Ideal) x3 x5 x7 x9) (Cert.ReferenceIdeal.Read.val_main_v2 (F := Ideal) x4 x6 x8 x10) r (Cert.Lstm.col 0 (by omega) j) := by
  have hi : Cert.ReferenceIdeal.Read.idx_main_v8 (ix2 r j) = ix2 r (Cert.Lstm.col 0 (by omega) j) := funext fun a => Fin.ext (by
    match a with
    | ⟨0, _⟩ => rfl
    | ⟨1, _⟩ => exact (Nat.zero_add _).symm)
  rw [Cert.ReferenceIdeal.Read.val_main_v8_apply, hi, ref_gate]

/-- Columns 2048..4095 of z: the forget gate's pre-activation. -/
theorem ref_pre_forget (x0 x1 : (⟨Cert.ReferenceIdeal.S4096x2048, .f32⟩ : BufTy).Contents (Elt Ideal)) (x3 : (⟨Cert.ReferenceIdeal.S2048x4096, .f32⟩ : BufTy).Contents (Elt Ideal)) (x4 : (⟨Cert.ReferenceIdeal.S2048, .f32⟩ : BufTy).Contents (Elt Ideal)) (x5 : (⟨Cert.ReferenceIdeal.S2048x4096, .f32⟩ : BufTy).Contents (Elt Ideal)) (x6 : (⟨Cert.ReferenceIdeal.S2048, .f32⟩ : BufTy).Contents (Elt Ideal)) (x7 : (⟨Cert.ReferenceIdeal.S2048x4096, .f32⟩ : BufTy).Contents (Elt Ideal)) (x8 : (⟨Cert.ReferenceIdeal.S2048, .f32⟩ : BufTy).Contents (Elt Ideal)) (x9 : (⟨Cert.ReferenceIdeal.S2048x4096, .f32⟩ : BufTy).Contents (Elt Ideal)) (x10 : (⟨Cert.ReferenceIdeal.S2048, .f32⟩ : BufTy).Contents (Elt Ideal)) (r : Fin 4096) (j : Fin 2048) :
    Cert.ReferenceIdeal.Read.val_main_v9 (F := Ideal) x0 x1 x3 x4 x5 x6 x7 x8 x9 x10 (ix2 r j)
      = Cert.Lstm.gate (Cert.ReferenceIdeal.Read.val_main_v0 (F := Ideal) x0 x1) (Cert.ReferenceIdeal.Read.val_main_v3 (F := Ideal) x3 x5 x7 x9) (Cert.ReferenceIdeal.Read.val_main_v2 (F := Ideal) x4 x6 x8 x10) r (Cert.Lstm.col 2048 (by omega) j) := by
  have hi : Cert.ReferenceIdeal.Read.idx_main_v9 (ix2 r j) = ix2 r (Cert.Lstm.col 2048 (by omega) j) := funext fun a => Fin.ext (by
    match a with
    | ⟨0, _⟩ => rfl
    | ⟨1, _⟩ => rfl)
  rw [Cert.ReferenceIdeal.Read.val_main_v9_apply, hi, ref_gate]

/-- Columns 4096..6143 of z: the output gate's pre-activation. -/
theorem ref_pre_output (x0 x1 : (⟨Cert.ReferenceIdeal.S4096x2048, .f32⟩ : BufTy).Contents (Elt Ideal)) (x3 : (⟨Cert.ReferenceIdeal.S2048x4096, .f32⟩ : BufTy).Contents (Elt Ideal)) (x4 : (⟨Cert.ReferenceIdeal.S2048, .f32⟩ : BufTy).Contents (Elt Ideal)) (x5 : (⟨Cert.ReferenceIdeal.S2048x4096, .f32⟩ : BufTy).Contents (Elt Ideal)) (x6 : (⟨Cert.ReferenceIdeal.S2048, .f32⟩ : BufTy).Contents (Elt Ideal)) (x7 : (⟨Cert.ReferenceIdeal.S2048x4096, .f32⟩ : BufTy).Contents (Elt Ideal)) (x8 : (⟨Cert.ReferenceIdeal.S2048, .f32⟩ : BufTy).Contents (Elt Ideal)) (x9 : (⟨Cert.ReferenceIdeal.S2048x4096, .f32⟩ : BufTy).Contents (Elt Ideal)) (x10 : (⟨Cert.ReferenceIdeal.S2048, .f32⟩ : BufTy).Contents (Elt Ideal)) (r : Fin 4096) (j : Fin 2048) :
    Cert.ReferenceIdeal.Read.val_main_v10 (F := Ideal) x0 x1 x3 x4 x5 x6 x7 x8 x9 x10 (ix2 r j)
      = Cert.Lstm.gate (Cert.ReferenceIdeal.Read.val_main_v0 (F := Ideal) x0 x1) (Cert.ReferenceIdeal.Read.val_main_v3 (F := Ideal) x3 x5 x7 x9) (Cert.ReferenceIdeal.Read.val_main_v2 (F := Ideal) x4 x6 x8 x10) r (Cert.Lstm.col 4096 (by omega) j) := by
  have hi : Cert.ReferenceIdeal.Read.idx_main_v10 (ix2 r j) = ix2 r (Cert.Lstm.col 4096 (by omega) j) := funext fun a => Fin.ext (by
    match a with
    | ⟨0, _⟩ => rfl
    | ⟨1, _⟩ => rfl)
  rw [Cert.ReferenceIdeal.Read.val_main_v10_apply, hi, ref_gate]

/-- Columns 6144..8191 of z: the candidate's pre-activation. -/
theorem ref_pre_cand (x0 x1 : (⟨Cert.ReferenceIdeal.S4096x2048, .f32⟩ : BufTy).Contents (Elt Ideal)) (x3 : (⟨Cert.ReferenceIdeal.S2048x4096, .f32⟩ : BufTy).Contents (Elt Ideal)) (x4 : (⟨Cert.ReferenceIdeal.S2048, .f32⟩ : BufTy).Contents (Elt Ideal)) (x5 : (⟨Cert.ReferenceIdeal.S2048x4096, .f32⟩ : BufTy).Contents (Elt Ideal)) (x6 : (⟨Cert.ReferenceIdeal.S2048, .f32⟩ : BufTy).Contents (Elt Ideal)) (x7 : (⟨Cert.ReferenceIdeal.S2048x4096, .f32⟩ : BufTy).Contents (Elt Ideal)) (x8 : (⟨Cert.ReferenceIdeal.S2048, .f32⟩ : BufTy).Contents (Elt Ideal)) (x9 : (⟨Cert.ReferenceIdeal.S2048x4096, .f32⟩ : BufTy).Contents (Elt Ideal)) (x10 : (⟨Cert.ReferenceIdeal.S2048, .f32⟩ : BufTy).Contents (Elt Ideal)) (r : Fin 4096) (j : Fin 2048) :
    Cert.ReferenceIdeal.Read.val_main_v11 (F := Ideal) x0 x1 x3 x4 x5 x6 x7 x8 x9 x10 (ix2 r j)
      = Cert.Lstm.gate (Cert.ReferenceIdeal.Read.val_main_v0 (F := Ideal) x0 x1) (Cert.ReferenceIdeal.Read.val_main_v3 (F := Ideal) x3 x5 x7 x9) (Cert.ReferenceIdeal.Read.val_main_v2 (F := Ideal) x4 x6 x8 x10) r (Cert.Lstm.col 6144 (by omega) j) := by
  have hi : Cert.ReferenceIdeal.Read.idx_main_v11 (ix2 r j) = ix2 r (Cert.Lstm.col 6144 (by omega) j) := funext fun a => Fin.ext (by
    match a with
    | ⟨0, _⟩ => rfl
    | ⟨1, _⟩ => rfl)
  rw [Cert.ReferenceIdeal.Read.val_main_v11_apply, hi, ref_gate]

/-- The input gate: the quotient 1 / (1 + e⁻ˣ) at the input pre-activation is the logistic function there. -/
theorem ref_input (x0 x1 : (⟨Cert.ReferenceIdeal.S4096x2048, .f32⟩ : BufTy).Contents (Elt Ideal)) (x3 : (⟨Cert.ReferenceIdeal.S2048x4096, .f32⟩ : BufTy).Contents (Elt Ideal)) (x4 : (⟨Cert.ReferenceIdeal.S2048, .f32⟩ : BufTy).Contents (Elt Ideal)) (x5 : (⟨Cert.ReferenceIdeal.S2048x4096, .f32⟩ : BufTy).Contents (Elt Ideal)) (x6 : (⟨Cert.ReferenceIdeal.S2048, .f32⟩ : BufTy).Contents (Elt Ideal)) (x7 : (⟨Cert.ReferenceIdeal.S2048x4096, .f32⟩ : BufTy).Contents (Elt Ideal)) (x8 : (⟨Cert.ReferenceIdeal.S2048, .f32⟩ : BufTy).Contents (Elt Ideal)) (x9 : (⟨Cert.ReferenceIdeal.S2048x4096, .f32⟩ : BufTy).Contents (Elt Ideal)) (x10 : (⟨Cert.ReferenceIdeal.S2048, .f32⟩ : BufTy).Contents (Elt Ideal)) (r : Fin 4096) (j : Fin 2048) :
    Cert.ReferenceIdeal.Read.val_main_v17 (F := Ideal) x0 x1 x3 x4 x5 x6 x7 x8 x9 x10 (ix2 r j)
      = Ideal.logistic (Cert.Lstm.gate (Cert.ReferenceIdeal.Read.val_main_v0 (F := Ideal) x0 x1) (Cert.ReferenceIdeal.Read.val_main_v3 (F := Ideal) x3 x5 x7 x9) (Cert.ReferenceIdeal.Read.val_main_v2 (F := Ideal) x4 x6 x8 x10) r (Cert.Lstm.col 0 (by omega) j)) := by
  rw [Cert.ReferenceIdeal.Read.val_main_v17_apply, Cert.ReferenceIdeal.Read.val_main_v16_apply, Cert.ReferenceIdeal.Read.val_main_cst_0_apply, Cert.ReferenceIdeal.Read.val_main_v15_apply, Cert.ReferenceIdeal.Read.val_main_v14_apply, Cert.ReferenceIdeal.Read.val_main_cst_apply, Cert.ReferenceIdeal.Read.val_main_v13_apply, Cert.ReferenceIdeal.Read.val_main_v12_apply, ref_pre_input]
  simp only [Ideal.hostDivf_def, Ideal.hostUnary_exp_def, Ideal.hostNegf_def, Ideal.negf_def, Ideal.addf_def, Ideal.ofBits_def]
  exact Cert.Lstm.logistic_spelled _

/-- The forget gate: the logistic function at the forget pre-activation. -/
theorem ref_forget (x0 x1 : (⟨Cert.ReferenceIdeal.S4096x2048, .f32⟩ : BufTy).Contents (Elt Ideal)) (x3 : (⟨Cert.ReferenceIdeal.S2048x4096, .f32⟩ : BufTy).Contents (Elt Ideal)) (x4 : (⟨Cert.ReferenceIdeal.S2048, .f32⟩ : BufTy).Contents (Elt Ideal)) (x5 : (⟨Cert.ReferenceIdeal.S2048x4096, .f32⟩ : BufTy).Contents (Elt Ideal)) (x6 : (⟨Cert.ReferenceIdeal.S2048, .f32⟩ : BufTy).Contents (Elt Ideal)) (x7 : (⟨Cert.ReferenceIdeal.S2048x4096, .f32⟩ : BufTy).Contents (Elt Ideal)) (x8 : (⟨Cert.ReferenceIdeal.S2048, .f32⟩ : BufTy).Contents (Elt Ideal)) (x9 : (⟨Cert.ReferenceIdeal.S2048x4096, .f32⟩ : BufTy).Contents (Elt Ideal)) (x10 : (⟨Cert.ReferenceIdeal.S2048, .f32⟩ : BufTy).Contents (Elt Ideal)) (r : Fin 4096) (j : Fin 2048) :
    Cert.ReferenceIdeal.Read.val_main_v23 (F := Ideal) x0 x1 x3 x4 x5 x6 x7 x8 x9 x10 (ix2 r j)
      = Ideal.logistic (Cert.Lstm.gate (Cert.ReferenceIdeal.Read.val_main_v0 (F := Ideal) x0 x1) (Cert.ReferenceIdeal.Read.val_main_v3 (F := Ideal) x3 x5 x7 x9) (Cert.ReferenceIdeal.Read.val_main_v2 (F := Ideal) x4 x6 x8 x10) r (Cert.Lstm.col 2048 (by omega) j)) := by
  rw [Cert.ReferenceIdeal.Read.val_main_v23_apply, Cert.ReferenceIdeal.Read.val_main_v22_apply, Cert.ReferenceIdeal.Read.val_main_cst_2_apply, Cert.ReferenceIdeal.Read.val_main_v21_apply, Cert.ReferenceIdeal.Read.val_main_v20_apply, Cert.ReferenceIdeal.Read.val_main_cst_1_apply, Cert.ReferenceIdeal.Read.val_main_v19_apply, Cert.ReferenceIdeal.Read.val_main_v18_apply, ref_pre_forget]
  simp only [Ideal.hostDivf_def, Ideal.hostUnary_exp_def, Ideal.hostNegf_def, Ideal.negf_def, Ideal.addf_def, Ideal.ofBits_def]
  exact Cert.Lstm.logistic_spelled _

/-- The output gate: the logistic function at the output pre-activation. -/
theorem ref_output (x0 x1 : (⟨Cert.ReferenceIdeal.S4096x2048, .f32⟩ : BufTy).Contents (Elt Ideal)) (x3 : (⟨Cert.ReferenceIdeal.S2048x4096, .f32⟩ : BufTy).Contents (Elt Ideal)) (x4 : (⟨Cert.ReferenceIdeal.S2048, .f32⟩ : BufTy).Contents (Elt Ideal)) (x5 : (⟨Cert.ReferenceIdeal.S2048x4096, .f32⟩ : BufTy).Contents (Elt Ideal)) (x6 : (⟨Cert.ReferenceIdeal.S2048, .f32⟩ : BufTy).Contents (Elt Ideal)) (x7 : (⟨Cert.ReferenceIdeal.S2048x4096, .f32⟩ : BufTy).Contents (Elt Ideal)) (x8 : (⟨Cert.ReferenceIdeal.S2048, .f32⟩ : BufTy).Contents (Elt Ideal)) (x9 : (⟨Cert.ReferenceIdeal.S2048x4096, .f32⟩ : BufTy).Contents (Elt Ideal)) (x10 : (⟨Cert.ReferenceIdeal.S2048, .f32⟩ : BufTy).Contents (Elt Ideal)) (r : Fin 4096) (j : Fin 2048) :
    Cert.ReferenceIdeal.Read.val_main_v29 (F := Ideal) x0 x1 x3 x4 x5 x6 x7 x8 x9 x10 (ix2 r j)
      = Ideal.logistic (Cert.Lstm.gate (Cert.ReferenceIdeal.Read.val_main_v0 (F := Ideal) x0 x1) (Cert.ReferenceIdeal.Read.val_main_v3 (F := Ideal) x3 x5 x7 x9) (Cert.ReferenceIdeal.Read.val_main_v2 (F := Ideal) x4 x6 x8 x10) r (Cert.Lstm.col 4096 (by omega) j)) := by
  rw [Cert.ReferenceIdeal.Read.val_main_v29_apply, Cert.ReferenceIdeal.Read.val_main_v28_apply, Cert.ReferenceIdeal.Read.val_main_cst_4_apply, Cert.ReferenceIdeal.Read.val_main_v27_apply, Cert.ReferenceIdeal.Read.val_main_v26_apply, Cert.ReferenceIdeal.Read.val_main_cst_3_apply, Cert.ReferenceIdeal.Read.val_main_v25_apply, Cert.ReferenceIdeal.Read.val_main_v24_apply, ref_pre_output]
  simp only [Ideal.hostDivf_def, Ideal.hostUnary_exp_def, Ideal.hostNegf_def, Ideal.negf_def, Ideal.addf_def, Ideal.ofBits_def]
  exact Cert.Lstm.logistic_spelled _

/-- The new cell state: forget gate times the old cell state plus input gate times tanh of the candidate. -/
theorem ref_cell (x0 x1 x2 : (⟨Cert.ReferenceIdeal.S4096x2048, .f32⟩ : BufTy).Contents (Elt Ideal)) (x3 : (⟨Cert.ReferenceIdeal.S2048x4096, .f32⟩ : BufTy).Contents (Elt Ideal)) (x4 : (⟨Cert.ReferenceIdeal.S2048, .f32⟩ : BufTy).Contents (Elt Ideal)) (x5 : (⟨Cert.ReferenceIdeal.S2048x4096, .f32⟩ : BufTy).Contents (Elt Ideal)) (x6 : (⟨Cert.ReferenceIdeal.S2048, .f32⟩ : BufTy).Contents (Elt Ideal)) (x7 : (⟨Cert.ReferenceIdeal.S2048x4096, .f32⟩ : BufTy).Contents (Elt Ideal)) (x8 : (⟨Cert.ReferenceIdeal.S2048, .f32⟩ : BufTy).Contents (Elt Ideal)) (x9 : (⟨Cert.ReferenceIdeal.S2048x4096, .f32⟩ : BufTy).Contents (Elt Ideal)) (x10 : (⟨Cert.ReferenceIdeal.S2048, .f32⟩ : BufTy).Contents (Elt Ideal)) :
    Cert.ReferenceIdeal.Read.val_main_v33 (F := Ideal) x0 x1 x2 x3 x4 x5 x6 x7 x8 x9 x10
      = Cert.Lstm.cellNew (Cert.ReferenceIdeal.Read.val_main_v0 (F := Ideal) x0 x1) (Cert.ReferenceIdeal.Read.val_main_v3 (F := Ideal) x3 x5 x7 x9) (Cert.ReferenceIdeal.Read.val_main_v2 (F := Ideal) x4 x6 x8 x10) x2 := by
  funext i
  obtain ⟨r, j, rfl⟩ : ∃ (r : Fin 4096) (j : Fin 2048), i = ix2 r j := ⟨i 0, i 1, eq_ix2 i⟩
  rw [Cert.ReferenceIdeal.Read.val_main_v33_apply, Cert.ReferenceIdeal.Read.val_main_v31_apply, Cert.ReferenceIdeal.Read.val_main_v32_apply, Cert.ReferenceIdeal.Read.val_main_v30_apply,
    ref_forget, ref_input, ref_pre_cand]
  simp only [Ideal.hostUnary_tanh_def, Ideal.addf_def, Ideal.mulf_def]
  rfl

/-- The new hidden state: output gate times tanh of the new cell state. -/
theorem ref_hidden (x0 x1 x2 : (⟨Cert.ReferenceIdeal.S4096x2048, .f32⟩ : BufTy).Contents (Elt Ideal)) (x3 : (⟨Cert.ReferenceIdeal.S2048x4096, .f32⟩ : BufTy).Contents (Elt Ideal)) (x4 : (⟨Cert.ReferenceIdeal.S2048, .f32⟩ : BufTy).Contents (Elt Ideal)) (x5 : (⟨Cert.ReferenceIdeal.S2048x4096, .f32⟩ : BufTy).Contents (Elt Ideal)) (x6 : (⟨Cert.ReferenceIdeal.S2048, .f32⟩ : BufTy).Contents (Elt Ideal)) (x7 : (⟨Cert.ReferenceIdeal.S2048x4096, .f32⟩ : BufTy).Contents (Elt Ideal)) (x8 : (⟨Cert.ReferenceIdeal.S2048, .f32⟩ : BufTy).Contents (Elt Ideal)) (x9 : (⟨Cert.ReferenceIdeal.S2048x4096, .f32⟩ : BufTy).Contents (Elt Ideal)) (x10 : (⟨Cert.ReferenceIdeal.S2048, .f32⟩ : BufTy).Contents (Elt Ideal)) :
    Cert.ReferenceIdeal.Read.val_main_v35 (F := Ideal) x0 x1 x2 x3 x4 x5 x6 x7 x8 x9 x10
      = Cert.Lstm.hiddenNew (Cert.ReferenceIdeal.Read.val_main_v0 (F := Ideal) x0 x1) (Cert.ReferenceIdeal.Read.val_main_v3 (F := Ideal) x3 x5 x7 x9) (Cert.ReferenceIdeal.Read.val_main_v2 (F := Ideal) x4 x6 x8 x10) x2 := by
  funext i
  obtain ⟨r, j, rfl⟩ : ∃ (r : Fin 4096) (j : Fin 2048), i = ix2 r j := ⟨i 0, i 1, eq_ix2 i⟩
  rw [Cert.ReferenceIdeal.Read.val_main_v35_apply, Cert.ReferenceIdeal.Read.val_main_v34_apply, ref_output, ref_cell]
  simp only [Ideal.hostUnary_tanh_def, Ideal.mulf_def]
  rfl

end Cert.Lstm.Ref

end
-- ==== Proof.lean ====
/-
  The fused LSTM-cell kernel against its reference: the five claims.

  Kernel and reference both join the inputs with the previous hidden states, join and transpose the four gates'
  weights and join the four biases; the reference multiplies once over the whole contracted axis of 4096 entries, the
  kernel in 32 steps of 128 entries accumulated in scratch memory, for each of 16 blocks of 256 batch rows. On the
  extended reals addition is associative and commutative, so the 32 partial sums are the one sum; the logistic
  function of the kernel is the reference's quotient 1 / (1 + e⁻ˣ); tanh is the same function on both sides. Hence
  both programs end with the same new hidden state and the same new cell state, entry by entry.

  The kernel's run (it terminates, nothing faults, arguments unchanged) is proved at the word level and at the ideal
  values from one text; the reference's run is read back operation by operation; no rewrite was applied when the
  kernel was idealized, so there is nothing to preserve.
-/
import proofs.«123030_j16269336118035_1_alg».proof.Defs
import proofs.«123030_j16269336118035_1_alg».proof.Proof.Gen.Kernel
import proofs.«123030_j16269336118035_1_alg».proof.Proof.Gen.KernelIdeal
import proofs.«123030_j16269336118035_1_alg».proof.Proof.Gen.ReferenceIdeal
import proofs.«123030_j16269336118035_1_alg».proof.Proof.Gen.Pre_finite_inputs
import proofs.«123030_j16269336118035_1_alg».proof.Proof.Gen.ReferenceIdeal.Run
import proofs.«123030_j16269336118035_1_alg».proof.Proof.Gen.ReferenceIdeal.Read
import proofs.«123030_j16269336118035_1_alg».proof.Proof.KFrameB.Frame
import proofs.«123030_j16269336118035_1_alg».proof.Proof.KFinal
import proofs.«123030_j16269336118035_1_alg».proof.Proof.RefSpec
import Idealize.ShloMosaic.Adequacy
import Idealize.ShloMosaic.Init

set_option maxRecDepth 16384

noncomputable section

namespace Cert.Proof

open Idealize.ShloMosaic Idealize.ShloMosaic.TcCoe Idealize.SL.Sem

/-- The kernel program, on machine words, runs to its end and leaves its arguments unchanged. -/
theorem frame_k : Cert.frame_Kernel := fun m ρ _ => Cert.Kernel.Hand.frame m ρ

/-- The same program read at the ideal values. -/
theorem frame_ki : Cert.frame_KernelIdeal := fun m ρ _ => Cert.KernelIdeal.Hand.frame m ρ

/-- The reference runs to its end and leaves its arguments unchanged: its run read back, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The reference's hidden state, from memories agreeing with the kernel's on the arguments, is the kernel's. -/
theorem hidden_eq (m : (ℓ : Loc Cert.KernelIdeal.nD Cert.KernelIdeal.τ Cert.KernelIdeal.sig) → Buf (Elt Ideal) ℓ)
    (x0 x1 x2 : (⟨Cert.ReferenceIdeal.S4096x2048, .f32⟩ : BufTy).Contents (Elt Ideal))
    (x3 x5 x7 x9 : (⟨Cert.ReferenceIdeal.S2048x4096, .f32⟩ : BufTy).Contents (Elt Ideal))
    (x4 x6 x8 x10 : (⟨Cert.ReferenceIdeal.S2048, .f32⟩ : BufTy).Contents (Elt Ideal)) (c : Dev Cert.KernelIdeal.nD)
    (h0 : x0 = m ((c.tc : Thread Cert.KernelIdeal.nD Cert.KernelIdeal.τ).loc Cert.KernelIdeal.main_arg0))
    (h1 : x1 = m ((c.tc : Thread Cert.KernelIdeal.nD Cert.KernelIdeal.τ).loc Cert.KernelIdeal.main_arg1))
    (h2 : x2 = m ((c.tc : Thread Cert.KernelIdeal.nD Cert.KernelIdeal.τ).loc Cert.KernelIdeal.main_arg2))
    (h3 : x3 = m ((c.tc : Thread Cert.KernelIdeal.nD Cert.KernelIdeal.τ).loc Cert.KernelIdeal.main_arg3))
    (h4 : x4 = m ((c.tc : Thread Cert.KernelIdeal.nD Cert.KernelIdeal.τ).loc Cert.KernelIdeal.main_arg4))
    (h5 : x5 = m ((c.tc : Thread Cert.KernelIdeal.nD Cert.KernelIdeal.τ).loc Cert.KernelIdeal.main_arg5))
    (h6 : x6 = m ((c.tc : Thread Cert.KernelIdeal.nD Cert.KernelIdeal.τ).loc Cert.KernelIdeal.main_arg6))
    (h7 : x7 = m ((c.tc : Thread Cert.KernelIdeal.nD Cert.KernelIdeal.τ).loc Cert.KernelIdeal.main_arg7))
    (h8 : x8 = m ((c.tc : Thread Cert.KernelIdeal.nD Cert.KernelIdeal.τ).loc Cert.KernelIdeal.main_arg8))
    (h9 : x9 = m ((c.tc : Thread Cert.KernelIdeal.nD Cert.KernelIdeal.τ).loc Cert.KernelIdeal.main_arg9))
    (h10 : x10 = m ((c.tc : Thread Cert.KernelIdeal.nD Cert.KernelIdeal.τ).loc Cert.KernelIdeal.main_arg10)) :
    Cert.ReferenceIdeal.Read.val_main_v35 (F := Ideal) x0 x1 x2 x3 x4 x5 x6 x7 x8 x9 x10 = Cert.Lstm.Kern.Hfin m c := by
  subst h0 h1 h2 h3 h4 h5 h6 h7 h8 h9 h10
  rw [Cert.Lstm.Ref.ref_hidden]
  rfl

/-- The same for the cell state. -/
theorem cell_eq (m : (ℓ : Loc Cert.KernelIdeal.nD Cert.KernelIdeal.τ Cert.KernelIdeal.sig) → Buf (Elt Ideal) ℓ)
    (x0 x1 x2 : (⟨Cert.ReferenceIdeal.S4096x2048, .f32⟩ : BufTy).Contents (Elt Ideal))
    (x3 x5 x7 x9 : (⟨Cert.ReferenceIdeal.S2048x4096, .f32⟩ : BufTy).Contents (Elt Ideal))
    (x4 x6 x8 x10 : (⟨Cert.ReferenceIdeal.S2048, .f32⟩ : BufTy).Contents (Elt Ideal)) (c : Dev Cert.KernelIdeal.nD)
    (h0 : x0 = m ((c.tc : Thread Cert.KernelIdeal.nD Cert.KernelIdeal.τ).loc Cert.KernelIdeal.main_arg0))
    (h1 : x1 = m ((c.tc : Thread Cert.KernelIdeal.nD Cert.KernelIdeal.τ).loc Cert.KernelIdeal.main_arg1))
    (h2 : x2 = m ((c.tc : Thread Cert.KernelIdeal.nD Cert.KernelIdeal.τ).loc Cert.KernelIdeal.main_arg2))
    (h3 : x3 = m ((c.tc : Thread Cert.KernelIdeal.nD Cert.KernelIdeal.τ).loc Cert.KernelIdeal.main_arg3))
    (h4 : x4 = m ((c.tc : Thread Cert.KernelIdeal.nD Cert.KernelIdeal.τ).loc Cert.KernelIdeal.main_arg4))
    (h5 : x5 = m ((c.tc : Thread Cert.KernelIdeal.nD Cert.KernelIdeal.τ).loc Cert.KernelIdeal.main_arg5))
    (h6 : x6 = m ((c.tc : Thread Cert.KernelIdeal.nD Cert.KernelIdeal.τ).loc Cert.KernelIdeal.main_arg6))
    (h7 : x7 = m ((c.tc : Thread Cert.KernelIdeal.nD Cert.KernelIdeal.τ).loc Cert.KernelIdeal.main_arg7))
    (h8 : x8 = m ((c.tc : Thread Cert.KernelIdeal.nD Cert.KernelIdeal.τ).loc Cert.KernelIdeal.main_arg8))
    (h9 : x9 = m ((c.tc : Thread Cert.KernelIdeal.nD Cert.KernelIdeal.τ).loc Cert.KernelIdeal.main_arg9))
    (h10 : x10 = m ((c.tc : Thread Cert.KernelIdeal.nD Cert.KernelIdeal.τ).loc Cert.KernelIdeal.main_arg10)) :
    Cert.ReferenceIdeal.Read.val_main_v33 (F := Ideal) x0 x1 x2 x3 x4 x5 x6 x7 x8 x9 x10 = Cert.Lstm.Kern.Cfin m c := by
  subst h0 h1 h2 h3 h4 h5 h6 h7 h8 h9 h10
  rw [Cert.Lstm.Ref.ref_cell]
  rfl

/-- From memories agreeing on the arguments both programs end with the same two results. -/
theorem algebraic : Cert.algebraic_KernelIdeal_ReferenceIdeal := by
  intro m ρ m' ρ' _ hagree
  refine ⟨fun c => Cert.Lstm.Kern.Hfin m c, fun c => Cert.Lstm.Kern.Cfin m c, Cert.Lstm.Kern.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10⟩ := hagree c
    rw [Cert.ReferenceIdeal.Read.val_main_v35_eq]
    exact hidden_eq m _ _ _ _ _ _ _ _ _ _ _ c a0 a1 a2 a3 a4 a5 a6 a7 a8 a9 a10
  · obtain ⟨a0, a1, a2, a3, a4, a5, a6, a7, a8, a9, a10⟩ := hagree c
    refine (Cert.ReferenceIdeal.Read.val_main_v33_eq (F := Ideal) _ _ _ _ _ _ _ _ _ _ _).trans ?_
    exact cell_eq m _ _ _ _ _ _ _ _ _ _ _ c a0 a1 a2 a3 a4 a5 a6 a7 a8 a9 a10

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
